-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bcast_S_S3072x512 : S_.BroadcastsInDim S3072x512 (![] : Fin 0 → Fin S3072x512.rank)
  reducesTo_S3072x512_S_d0_1 : S3072x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S4096x3x32x32 .f32) (main_arg1 : FVec F S3072x512 .f32) (main_arg2 : FVec F S1x512 .f32) (main_arg3 : FVec F S512x128 .f32) (main_arg4 : FVec F S1x128 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S3072x512 .f32 := Host.absf main_arg1
  let main_cst_0 : FVec F S_ .f32 := constant S_ .f32 0x7F800000#32
  let main_v5 : FVec F S3072x512 .f32 := broadcastInDim S3072x512 ![] bcast_S_S3072x512 main_cst_0
  let main_v6 : IVec S3072x512 1 := cmpf .olt main_v4 main_v5
  let main_c_1 : IVec S_ 1 := constantI S_ 1 1#1
  let main_v7 : IVec S_ 1 := (fun x v => Host.reduce IntOp.andi x v reducesTo_S3072x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S4096x128 : Shape := ⟨2, ![4096, 128]⟩
abbrev S256x3x32x32 : Shape := ⟨4, ![256, 3, 32, 32]⟩
abbrev S256x128 : Shape := ⟨2, ![256, 128]⟩
abbrev S256x3072 : Shape := ⟨2, ![256, 3072]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x3x32x32, .f32⟩
  | .hbm, ⟨1, _⟩ => ⟨S3072x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S4096x128, .f32⟩
  | .local _ .vmem, ⟨0, _⟩ => ⟨S256x3x32x32, .f32⟩
  | .local _ .vmem, ⟨1, _⟩ => ⟨S256x3x32x32, .f32⟩
  | .local _ .vmem, ⟨2, _⟩ => ⟨S3072x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x3x32x32_S256x3x32x32_0_0_0_0 : ∀ a, (![0, 0, 0, 0] : Fin 4 → Nat) a + S256x3x32x32.size a ≤ S256x3x32x32.size a
  h_S256x3x32x32 : 0 < S256x3x32x32.numel
  shapeCasts_S256x3x32x32_S256x3072 : S256x3x32x32.ShapeCasts S256x3072
  bitsLt_bf16_f32 : FTy.bits .bf16 < FTy.bits .f32
  inb_S3072x512_S3072x512_0_0 : ∀ a, (![0, 0] : Fin 2 → Nat) a + S3072x512.size a ≤ S3072x512.size a
  h_S3072x512 : 0 < S3072x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x3072_S3072x512_S256x512_1_0_0_1_n_n_wf : DotDims.WF S256x3072 S3072x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3x32x32.size a ≤ S4096x3x32x32.size a
  hwx0_0 : ∀ i : grid0.Coords, EltTy.bits .f32 = 32 ∨ (Rect.block (s := S4096x3x32x32) S256x3x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x512.size a ≤ S3072x512.size a
  hwx0_1 : ∀ i : grid0.Coords, EltTy.bits .f32 = 32 ∨ (Rect.block (s := S3072x512) S3072x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x128.size a
  hwx0_5 : ∀ i : grid0.Coords, EltTy.bits .f32 = 32 ∨ (Rect.block (s := S4096x128) S256x128.size (cc0_transform_5 i) (hinb0_5 i)).WholeWords (EltTy.packing .f32)

variable [Facts₀]

def dot_S256x3072_S3072x512_S256x512_1_0_0_1_n_n : DotDims S256x3072 S3072x512 S256x512 where
  lhsContracting := [1]
  rhsContracting := [0]
  lhsNonContracting := [0]
  rhsNonContracting := [1]
  lhsBatch := []
  rhsBatch := []
  wf := dot_S256x3072_S3072x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_arg0) S256x3x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S4096x3072 : Shape := ⟨2, ![4096, 3072]⟩
abbrev S4096x512 : Shape := ⟨2, ![4096, 512]⟩
abbrev S256x512 : Shape := ⟨2, ![256, 512]⟩
abbrev S512x256 : Shape := ⟨2, ![512, 256]⟩
abbrev S1x256 : Shape := ⟨2, ![1, 256]⟩
abbrev S256x256 : Shape := ⟨2, ![256, 256]⟩
abbrev S4096x128 : Shape := ⟨2, ![4096, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4096x3x32x32, .f32⟩
  | .hbm, ⟨1, _⟩ => ⟨S3072x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S4096x3072, .f32⟩
  | .hbm, ⟨6, _⟩ => ⟨S4096x512, .f32⟩
  | .hbm, ⟨7, _⟩ => ⟨S4096x128, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x512, .f32⟩
  | .local _ .vmem, ⟨10, _⟩ => ⟨S256x512, .f32⟩
  | .local _ .vmem, ⟨11, _⟩ => ⟨S512x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def k1_cond2 (i : grid1.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x3x32x32_S4096x3072 : S4096x3x32x32.ShapeCasts S4096x3072
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x512_S512x256_S256x256_1_0_0_1_n_n_wf : DotDims.WF S256x512 S512x256 S256x256 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x3072.size a
  hwx0_0 : ∀ i : grid0.Coords, EltTy.bits .f32 = 32 ∨ (Rect.block (s := S4096x3072) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S3072x512.size a
  hwx0_1 : ∀ i : grid0.Coords, EltTy.bits .f32 = 32 ∨ (Rect.block (s := S3072x512) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .f32 = 32 ∨ (Rect.block (s := S1x512) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x512.size a
  hwx0_3 : ∀ i : grid0.Coords, EltTy.bits .f32 = 32 ∨ (Rect.block (s := S4096x512) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x128.size a
  hwx1_3 : ∀ i : grid1.Coords, EltTy.bits .f32 = 32 ∨ (Rect.block (s := S4096x128) S256x128.size (cc1_transform_3 i) (hinb1_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The function both programs compute, over the extended reals.

  An image batch `x : [4096, 3, 32, 32]` is flattened row-major to `[4096, 3072]` (entry `(n, k)` is
  `x (n, k / 1024, (k / 32) % 32, k % 32)`); a first affine layer gives the features
  `y (n, j) = (∑ k < 3072, xflat (n, k) · w₁ (k, j)) + b₁ (0, j)` and a second one the scores
  `z (n, h) = (∑ j < 512, y (n, j) · w₂ (j, h)) + b₂ (0, h)`.

  Each sum is ONE finite sum over the whole contracted axis: how a program groups or orders its
  partial sums does not matter, because addition of extended reals is commutative and associative
  (no distributivity and no cancelling is used anywhere, so nothing here needs finiteness).
-/
import Idealize.ShloMosaic.PureOps.Ideal
import Idealize.ShloMosaic.Lib.ValueIdx

noncomputable section

namespace Cert.Spec

open Idealize.ShloMosaic Idealize.ShloMosaic.ValueIdx

/-- The image batch. -/
abbrev SImg : Shape := ⟨4, ![4096, 3, 32, 32]⟩
/-- The flattened batch. -/
abbrev SFlat : Shape := ⟨2, ![4096, 3072]⟩
/-- First layer: weights, bias row, result. -/
abbrev SW1 : Shape := ⟨2, ![3072, 512]⟩
abbrev SB1 : Shape := ⟨2, ![1, 512]⟩
abbrev SFeat : Shape := ⟨2, ![4096, 512]⟩
/-- Second layer: weights, bias row, result. -/
abbrev SW2 : Shape := ⟨2, ![512, 128]⟩
abbrev SB2 : Shape := ⟨2, ![1, 128]⟩
abbrev SOut : Shape := ⟨2, ![4096, 128]⟩

/-- Column `k` of the flattened batch is channel `k / 1024`, row `(k / 32) % 32`, column `k % 32`. -/
def chan (k : Fin 3072) : Fin 3 := ⟨k.val / 1024, by have := k.isLt; omega⟩
def prow (k : Fin 3072) : Fin 32 := ⟨(k.val / 32) % 32, Nat.mod_lt _ (by decide)⟩
def pcol (k : Fin 3072) : Fin 32 := ⟨k.val % 32, Nat.mod_lt _ (by decide)⟩

/-- The row-major flattening of the batch. -/
def flat (x : SImg.Idx → EReal) : SFlat.Idx → EReal :=
  fun i => x (ix4 (n0 := 4096) (n1 := 3) (n2 := 32) (n3 := 32) (i 0) (chan (i 1)) (prow (i 1)) (pcol (i 1)))

/-- The first affine layer: one sum over all 3072 flattened pixels, then the bias. -/
def feat (xf : SFlat.Idx → EReal) (w : SW1.Idx → EReal) (b : SB1.Idx → EReal) : SFeat.Idx → EReal :=
  fun i => (∑ k : Fin 3072, xf (ix2 (n0 := 4096) (n1 := 3072) (i 0) k) * w (ix2 (n0 := 3072) (n1 := 512) k (i 1)))
    + b (ix2 (n0 := 1) (n1 := 512) 0 (i 1))

/-- The second affine layer: one sum over all 512 features, then the bias. -/
def head (y : SFeat.Idx → EReal) (w : SW2.Idx → EReal) (b : SB2.Idx → EReal) : SOut.Idx → EReal :=
  fun i => (∑ j : Fin 512, y (ix2 (n0 := 4096) (n1 := 512) (i 0) j) * w (ix2 (n0 := 512) (n1 := 128) j (i 1)))
    + b (ix2 (n0 := 1) (n1 := 128) 0 (i 1))

/-- The whole model: flatten, first layer, second layer. -/
def logits (x : SImg.Idx → EReal) (w1 : SW1.Idx → EReal) (b1 : SB1.Idx → EReal) (w2 : SW2.Idx → EReal) (b2 : SB2.Idx → EReal) :
    SOut.Idx → EReal :=
  head (feat (flat x) w1 b1) w2 b2

end Cert.Spec

end
-- ==== Proof.KernelValue.lean ====
/-
  What the fused kernel leaves in its result array: the whole model of its arguments.
-/
import proofs.«123193_g2000202692251168_pallasbulk_345_5_alg».proof.Proof.Gen.KernelIdeal.Value
import proofs.«123193_g2000202692251168_pallasbulk_345_5_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.Spec (chan prow pcol)

/-! ## The two products, coordinate by coordinate

Each product contracts the left operand's columns against the right operand's rows: the left index keeps
the result's row and takes the contraction position as its column, the right index takes the contraction
position as its row and keeps the result's column. -/

theorem first_lhs_row (j : S256x512.Idx) (k : dot_S256x3072_S3072x512_S256x512_1_0_0_1_n_n.contr.Idx) :
    (dot_S256x3072_S3072x512_S256x512_1_0_0_1_n_n.lhsIdx j k 0 : ℕ) = j 0 := by
  simp [DotDims.lhsIdx, dot_S256x3072_S3072x512_S256x512_1_0_0_1_n_n]; rfl
theorem first_lhs_col (j : S256x512.Idx) (k : dot_S256x3072_S3072x512_S256x512_1_0_0_1_n_n.contr.Idx) :
    (dot_S256x3072_S3072x512_S256x512_1_0_0_1_n_n.lhsIdx j k 1 : ℕ) = k ⟨0, by decide⟩ := by
  simp [DotDims.lhsIdx, dot_S256x3072_S3072x512_S256x512_1_0_0_1_n_n]; rfl
theorem first_rhs_row (j : S256x512.Idx) (k : dot_S256x3072_S3072x512_S256x512_1_0_0_1_n_n.contr.Idx) :
    (dot_S256x3072_S3072x512_S256x512_1_0_0_1_n_n.rhsIdx j k 0 : ℕ) = k ⟨0, by decide⟩ := by
  simp [DotDims.rhsIdx, dot_S256x3072_S3072x512_S256x512_1_0_0_1_n_n]; rfl
theorem first_rhs_col (j : S256x512.Idx) (k : dot_S256x3072_S3072x512_S256x512_1_0_0_1_n_n.contr.Idx) :
    (dot_S256x3072_S3072x512_S256x512_1_0_0_1_n_n.rhsIdx j k 1 : ℕ) = j 1 := by
  simp [DotDims.rhsIdx, dot_S256x3072_S3072x512_S256x512_1_0_0_1_n_n]; rfl

/-- The first product into a zero accumulator, at row `r` and feature `j`: one sum over the 3072 flattened pixels. -/
theorem first_product_apply {φ₁ φ₂ : FTy} (A : FVec Ideal S256x3072 φ₁) (B : FVec Ideal S3072x512 φ₂) (r : Fin 256) (j : Fin 512) :
    matmul dot_S256x3072_S3072x512_S256x512_1_0_0_1_n_n none A B (constant (F := Ideal) S256x512 .f32 0x00000000#32) (ix2 r j)
      = ∑ k : Fin 3072, A (ix2 r k) * B (ix2 k j) := by
  show FloatOps.matmul _ none A B _ (ix2 r j) = _
  rw [Ideal.matmul_constant_zero_apply,
    ← Equiv.sum_comp (contrEquiv1 dot_S256x3072_S3072x512_S256x512_1_0_0_1_n_n 3072 rfl rfl).symm]
  refine Finset.sum_congr rfl fun k _ => ?_
  have hk := contrEquiv1_symm_val dot_S256x3072_S3072x512_S256x512_1_0_0_1_n_n 3072 rfl rfl k
  have hl : dot_S256x3072_S3072x512_S256x512_1_0_0_1_n_n.lhsIdx (ix2 r j)
      ((contrEquiv1 dot_S256x3072_S3072x512_S256x512_1_0_0_1_n_n 3072 rfl rfl).symm k) = ix2 r k := by
    funext a; apply Fin.ext
    match a with
    | ⟨0, _⟩ => exact first_lhs_row _ _
    | ⟨1, _⟩ => exact (first_lhs_col _ _).trans hk
  have hr : dot_S256x3072_S3072x512_S256x512_1_0_0_1_n_n.rhsIdx (ix2 r j)
      ((contrEquiv1 dot_S256x3072_S3072x512_S256x512_1_0_0_1_n_n 3072 rfl rfl).symm k) = ix2 k j := by
    funext a; apply Fin.ext
    match a with
    | ⟨0, _⟩ => exact (first_rhs_row _ _).trans hk
    | ⟨1, _⟩ => exact first_rhs_col _ _
  rw [hl, hr]

theorem second_lhs_row (j : S256x128.Idx) (k : dot_S256x512_S512x128_S256x128_1_0_0_1_n_n.contr.Idx) :
    (dot_S256x512_S512x128_S256x128_1_0_0_1_n_n.lhsIdx j k 0 : ℕ) = j 0 := by
  simp [DotDims.lhsIdx, dot_S256x512_S512x128_S256x128_1_0_0_1_n_n]; rfl
theorem second_lhs_col (j : S256x128.Idx) (k : dot_S256x512_S512x128_S256x128_1_0_0_1_n_n.contr.Idx) :
    (dot_S256x512_S512x128_S256x128_1_0_0_1_n_n.lhsIdx j k 1 : ℕ) = k ⟨0, by decide⟩ := by
  simp [DotDims.lhsIdx, dot_S256x512_S512x128_S256x128_1_0_0_1_n_n]; rfl
theorem second_rhs_row (j : S256x128.Idx) (k : dot_S256x512_S512x128_S256x128_1_0_0_1_n_n.contr.Idx) :
    (dot_S256x512_S512x128_S256x128_1_0_0_1_n_n.rhsIdx j k 0 : ℕ) = k ⟨0, by decide⟩ := by
  simp [DotDims.rhsIdx, dot_S256x512_S512x128_S256x128_1_0_0_1_n_n]; rfl
theorem second_rhs_col (j : S256x128.Idx) (k : dot_S256x512_S512x128_S256x128_1_0_0_1_n_n.contr.Idx) :
    (dot_S256x512_S512x128_S256x128_1_0_0_1_n_n.rhsIdx j k 1 : ℕ) = j 1 := by
  simp [DotDims.rhsIdx, dot_S256x512_S512x128_S256x128_1_0_0_1_n_n]; rfl

/-- The second product into a zero accumulator, at row `r` and score `h`: one sum over the 512 features. -/
theorem second_product_apply {φ₁ φ₂ : FTy} (A : FVec Ideal S256x512 φ₁) (B : FVec Ideal S512x128 φ₂) (r : Fin 256) (h : Fin 128) :
    matmul dot_S256x512_S512x128_S256x128_1_0_0_1_n_n none A B (constant (F := Ideal) S256x128 .f32 0x00000000#32) (ix2 r h)
      = ∑ j : Fin 512, A (ix2 r j) * B (ix2 j h) := by
  show FloatOps.matmul _ none A B _ (ix2 r h) = _
  rw [Ideal.matmul_constant_zero_apply,
    ← Equiv.sum_comp (contrEquiv1 dot_S256x512_S512x128_S256x128_1_0_0_1_n_n 512 rfl rfl).symm]
  refine Finset.sum_congr rfl fun j _ => ?_
  have hj := contrEquiv1_symm_val dot_S256x512_S512x128_S256x128_1_0_0_1_n_n 512 rfl rfl j
  have hl : dot_S256x512_S512x128_S256x128_1_0_0_1_n_n.lhsIdx (ix2 r h)
      ((contrEquiv1 dot_S256x512_S512x128_S256x128_1_0_0_1_n_n 512 rfl rfl).symm j) = ix2 r j := by
    funext a; apply Fin.ext
    match a with
    | ⟨0, _⟩ => exact second_lhs_row _ _
    | ⟨1, _⟩ => exact (second_lhs_col _ _).trans hj
  have hr : dot_S256x512_S512x128_S256x128_1_0_0_1_n_n.rhsIdx (ix2 r h)
      ((contrEquiv1 dot_S256x512_S512x128_S256x128_1_0_0_1_n_n 512 rfl rfl).symm j) = ix2 j h := by
    funext a; apply Fin.ext
    match a with
    | ⟨0, _⟩ => exact (second_rhs_row _ _).trans hj
    | ⟨1, _⟩ => exact second_rhs_col _ _
  rw [hl, hr]

/-! ## The body's value at an index -/

/-- The block of 256 images flattened row-major: column `k` of row `r` is the pixel of image `r` in channel
    `k / 1024`, at row `(k / 32) % 32` and column `k % 32` (both positions are `3072 · r + k`). -/
theorem flatten_apply {α : Type} (x : S256x3x32x32.Idx → α) (hc : S256x3x32x32.ShapeCasts S256x3072) (r : Fin 256) (k : Fin 3072) :
    shapeCast S256x3072 x hc (ix2 r k) = x (ix4 r (chan k) (prow k) (pcol k)) := by
  refine shapeCast_apply x hc (ix2 r k) (ix4 r (chan k) (prow k) (pcol k)) ?_
  rw [Shape.rowMajor_val_four, Shape.rowMajor_val_two]
  show ((r.val * 3 + k.val / 1024) * 32 + (k.val / 32) % 32) * 32 + k.val % 32 = r.val * 3072 + k.val
  have := k.isLt
  omega

/-- The body's result for a block of 256 images, at image `r` and score `h`: the second layer's sum over the 512
    features of the first layer's value (its sum over the 3072 flattened pixels plus its bias) times the second
    weight, plus the second bias. Narrowing to bf16 is the identity on the extended reals. -/
theorem payload_apply (x0 : Vec Ideal S256x3x32x32 .f32) (x1 : Vec Ideal S3072x512 .f32) (x2 : Vec Ideal S1x512 .f32)
    (x3 : Vec Ideal S512x128 .f32) (x4 : Vec Ideal S1x128 .f32) (r : Fin 256) (h : Fin 128) :
    k0_pay1 (F := Ideal) x0 x1 x2 x3 x4 (ix2 r h)
      = (∑ j : Fin 512, ((∑ k : Fin 3072, x0 (ix4 r (chan k) (prow k) (pcol k)) * x1 (ix2 k j)) + x2 (ix2 (0 : Fin 1) j)) * x3 (ix2 j h))
        + x4 (ix2 (0 : Fin 1) h) := by
  unfold k0_pay1
  rw [addf_apply, second_product_apply, broadcastTo_1b_ab_apply]
  congr 1
  refine Finset.sum_congr rfl fun j _ => ?_
  rw [truncf_apply, truncf_apply, addf_apply, first_product_apply, broadcastTo_1b_ab_apply]
  congr 2
  refine Finset.sum_congr rfl fun k _ => ?_
  rw [truncf_apply, truncf_apply, flatten_apply]

variable (m : (ℓ : Loc nD τ sig) → Buf (Elt Ideal) ℓ) (ρ : Dev nD → PrngReg)

/-- The kernel's result on core `c`, as a function of the launch memory: flatten, first layer, second layer. -/
def result (c : Dev nD) : Buf (Elt Ideal) ((c.tc : Thread nD τ).loc main_v0) :=
  Cert.Spec.logits (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The five launch arrays on core `c`, each at its literal shape over the extended reals. -/
abbrev images (c : Dev nD) : S4096x3x32x32.Idx → EReal := m ((c.tc : Thread nD τ).loc main_arg0)
abbrev weights1 (c : Dev nD) : S3072x512.Idx → EReal := m ((c.tc : Thread nD τ).loc main_arg1)
abbrev bias1 (c : Dev nD) : S1x512.Idx → EReal := m ((c.tc : Thread nD τ).loc main_arg2)
abbrev weights2 (c : Dev nD) : S512x128.Idx → EReal := m ((c.tc : Thread nD τ).loc main_arg3)
abbrev bias2 (c : Dev nD) : S1x128.Idx → EReal := m ((c.tc : Thread nD τ).loc main_arg4)

/-- The model at image `n` and score `h`, written out: the two nested sums over the launch arrays. -/
theorem result_apply (c : Dev nD) (n : Fin 4096) (h : Fin 128) :
    (result m c : S4096x128.Idx → EReal) (ix2 n h)
      = (∑ j : Fin 512, ((∑ k : Fin 3072, images m c (ix4 n (chan k) (prow k) (pcol k)) * weights1 m c (ix2 k j))
            + bias1 m c (ix2 (0 : Fin 1) j)) * weights2 m c (ix2 j h))
        + bias2 m c (ix2 (0 : Fin 1) h) := rfl

/-! ## Each grid point's blocks, as parts of the launch arrays

Point `t` of the 16 reads images `256·t … 256·t + 255` and the four parameter arrays whole, and writes rows
`256·t … 256·t + 255` of the scores. -/

theorem zeros2 : (![0, 0] : Fin 2 → Nat) = fun _ => 0 :=
  funext fun a => match a with | ⟨0, _⟩ => rfl | ⟨1, _⟩ => rfl
theorem zeros4 : (![0, 0, 0, 0] : Fin 4 → Nat) = fun _ => 0 :=
  funext fun a => match a with | ⟨0, _⟩ => rfl | ⟨1, _⟩ => rfl | ⟨2, _⟩ => rfl | ⟨3, _⟩ => rfl

/-- The block index of every window at every point: the image and score windows move along their leading axis with
    the point, the parameter windows stay at block zero. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Image `r` of point `t`'s image block is image `256·t + r` of the batch. -/
theorem image_block (c : Dev nD) (t : Fin cfg0.N) (r : Fin 256) (a : Fin 3) (p q : Fin 32) (n : Fin 4096)
    (hn : n.val = 256 * t.val + r.val) :
    (iblk m c 0 t : Vec Ideal S256x3x32x32 .f32) (ix4 r a p q)
      = images m c (ix4 n a p q) := by
  obtain ⟨e0, e1, e2, e3, -⟩ := index_facts t
  unfold iblk
  rw [View.read_apply]
  show V m c main_arg0 _ = m ((c.tc : Thread nD τ).loc main_arg0) _
  unfold V
  congr 1
  funext b
  apply Fin.ext
  match b with
  | ⟨0, _⟩ => show win0_0.index t (0 : Fin 4) * 256 + 1 * r.val = n.val; rw [e0, hn]; omega
  | ⟨1, _⟩ => show win0_0.index t (1 : Fin 4) * 3 + 1 * a.val = a.val; rw [e1]; omega
  | ⟨2, _⟩ => show win0_0.index t (2 : Fin 4) * 32 + 1 * p.val = p.val; rw [e2]; omega
  | ⟨3, _⟩ => show win0_0.index t (3 : Fin 4) * 32 + 1 * q.val = q.val; rw [e3]; omega

/-- Every point's first-layer weight block is the whole weight array. -/
theorem weights1_block (c : Dev nD) (t : Fin cfg0.N) (k : Fin 3072) (j : Fin 512) :
    (iblk m c 1 t : Vec Ideal S3072x512 .f32) (ix2 k j)
      = weights1 m c (ix2 k j) := by
  obtain ⟨-, -, -, -, e0, e1, -⟩ := index_facts t
  unfold iblk
  rw [View.read_apply]
  show V m c main_arg1 _ = m ((c.tc : Thread nD τ).loc main_arg1) _
  unfold V
  congr 1
  funext b
  apply Fin.ext
  match b with
  | ⟨0, _⟩ => show win0_1.index t (0 : Fin 2) * 3072 + 1 * k.val = k.val; rw [e0]; omega
  | ⟨1, _⟩ => show win0_1.index t (1 : Fin 2) * 512 + 1 * j.val = j.val; rw [e1]; omega

/-- Every point's first-layer bias block is the whole bias row. -/
theorem bias1_block (c : Dev nD) (t : Fin cfg0.N) (z : Fin 1) (j : Fin 512) :
    (iblk m c 2 t : Vec Ideal S1x512 .f32) (ix2 z j)
      = bias1 m c (ix2 z j) := by
  obtain ⟨-, -, -, -, -, -, e0, e1, -⟩ := index_facts t
  unfold iblk
  rw [View.read_apply]
  show V m c main_arg2 _ = m ((c.tc : Thread nD τ).loc main_arg2) _
  unfold V
  congr 1
  funext b
  apply Fin.ext
  match b with
  | ⟨0, _⟩ => show win0_2.index t (0 : Fin 2) * 1 + 1 * z.val = z.val; rw [e0]; omega
  | ⟨1, _⟩ => show win0_2.index t (1 : Fin 2) * 512 + 1 * j.val = j.val; rw [e1]; omega

/-- Every point's second-layer weight block is the whole weight array. -/
theorem weights2_block (c : Dev nD) (t : Fin cfg0.N) (j : Fin 512) (h : Fin 128) :
    (iblk m c 3 t : Vec Ideal S512x128 .f32) (ix2 j h)
      = weights2 m c (ix2 j h) := by
  obtain ⟨-, -, -, -, -, -, -, -, e0, e1, -⟩ := index_facts t
  unfold iblk
  rw [View.read_apply]
  show V m c main_arg3 _ = m ((c.tc : Thread nD τ).loc main_arg3) _
  unfold V
  congr 1
  funext b
  apply Fin.ext
  match b with
  | ⟨0, _⟩ => show win0_3.index t (0 : Fin 2) * 512 + 1 * j.val = j.val; rw [e0]; omega
  | ⟨1, _⟩ => show win0_3.index t (1 : Fin 2) * 128 + 1 * h.val = h.val; rw [e1]; omega

/-- Every point's second-layer bias block is the whole bias row. -/
theorem bias2_block (c : Dev nD) (t : Fin cfg0.N) (z : Fin 1) (h : Fin 128) :
    (iblk m c 4 t : Vec Ideal S1x128 .f32) (ix2 z h)
      = bias2 m c (ix2 z h) := by
  obtain ⟨-, -, -, -, -, -, -, -, -, -, e0, e1, -⟩ := index_facts t
  unfold iblk
  rw [View.read_apply]
  show V m c main_arg4 _ = m ((c.tc : Thread nD τ).loc main_arg4) _
  unfold V
  congr 1
  funext b
  apply Fin.ext
  match b with
  | ⟨0, _⟩ => show win0_4.index t (0 : Fin 2) * 1 + 1 * z.val = z.val; rw [e0]; omega
  | ⟨1, _⟩ => show win0_4.index t (1 : Fin 2) * 128 + 1 * h.val = h.val; rw [e1]; omega

/-- WHAT POINT `t` WRITES BACK is rows `256·t … 256·t + 255` of the model: the body's value at an index is the two
    nested sums over its blocks, each block entry is the launch array's entry the model reads there. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeros2]
  simp only [View.ld_unit_zero (S := S256x3x32x32) zeros4, View.ld_unit_zero (S := S3072x512) zeros2,
    View.ld_unit_zero (S := S1x512) zeros2, View.ld_unit_zero (S := S512x128) zeros2, View.ld_unit_zero (S := S1x128) zeros2]
  funext y
  have hN : cfg0.N = 16 := N_0
  have ht : t.val < cfg0.N := t.isLt
  have hy0 : (y 0).val < 256 := (y 0).isLt
  have hy1 : (y 1).val < 128 := (y 1).isLt
  obtain ⟨-, -, -, -, -, -, -, -, -, -, -, -, e0, e1⟩ := index_facts t
  have hin : (cfg0.win 5).xinj (grid0.coords t) y = ix2 (⟨(y 0).val, hy0⟩ : Fin 256) (⟨(y 1).val, hy1⟩ : Fin 128) :=
    funext fun a => match a with | ⟨0, _⟩ => rfl | ⟨1, _⟩ => rfl
  have hout : ((cfg0.win 5).blk t).view.emb y
      = ix2 (⟨256 * t.val + (y 0).val, by omega⟩ : Fin 4096) (⟨(y 1).val, hy1⟩ : Fin 128) := by
    funext a; apply Fin.ext
    match a with
    | ⟨0, _⟩ => show win0_5.index t (0 : Fin 2) * 256 + 1 * (y 0).val = 256 * t.val + (y 0).val; rw [e0]; omega
    | ⟨1, _⟩ => show win0_5.index t (1 : Fin 2) * 128 + 1 * (y 1).val = (y 1).val; rw [e1]; omega
  rw [View.read_apply]
  show k0_pay1 (F := Ideal) (iblk m c 0 t) (iblk m c 1 t) (iblk m c 2 t) (iblk m c 3 t) (iblk m c 4 t) ((cfg0.win 5).xinj (grid0.coords t) y)
    = (result m c : S4096x128.Idx → EReal) (((cfg0.win 5).blk t).view.emb y)
  refine (congrArg (k0_pay1 (F := Ideal) (iblk m c 0 t) (iblk m c 1 t) (iblk m c 2 t) (iblk m c 3 t) (iblk m c 4 t)) hin).trans ?_
  refine (payload_apply (iblk m c 0 t) (iblk m c 1 t) (iblk m c 2 t) (iblk m c 3 t) (iblk m c 4 t) ⟨(y 0).val, hy0⟩ ⟨(y 1).val, hy1⟩).trans ?_
  refine Eq.trans ?_ (congrArg (result m c : S4096x128.Idx → EReal) hout).symm
  rw [result_apply]
  refine congrArg₂ (fun a b : EReal => a + b) (Finset.sum_congr rfl fun j _ => congrArg₂ (fun a b : EReal => a * b)
      (congrArg₂ (fun a b : EReal => a + b) (Finset.sum_congr rfl fun k _ => congrArg₂ (fun a b : EReal => a * b) ?_ ?_) ?_) ?_) ?_
  · exact image_block m c t _ _ _ _ _ rfl
  · exact weights1_block m c t k j
  · exact bias1_block m c t 0 j
  · exact weights2_block m c t j _
  · exact bias2_block m c t 0 _

/-! ## The sixteen row blocks fill the score array -/

/-- An index of the score array is in point `t`'s block iff each coordinate is in the block's range on its axis. -/
theorem mem_block (t : Fin cfg0.N) (i : S4096x128.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v0).slice (win0_5.rect t)).set ↔ _
  rw [View.set_slice_whole, Rect.mem_set_unit]
  exact Iff.rfl

/-- Row `n` of the scores is written by point `n / 256`. -/
theorem cover (i : S4096x128.Idx) : ∃ t : Fin cfg0.N, (cfg0.win 5).flush t = true ∧ i ∈ ((cfg0.win 5).blk t).view.set := by
  have hN : cfg0.N = 16 := N_0
  have hi0 : (i 0).val < 4096 := (i 0).isLt
  have hi1 : (i 1).val < 128 := (i 1).isLt
  obtain ⟨t, ht⟩ : ∃ t : Fin cfg0.N, t.val = (i 0).val / 256 := ⟨⟨(i 0).val / 256, by rw [hN]; omega⟩, rfl⟩
  obtain ⟨-, -, -, -, -, -, -, -, -, -, -, -, e0, e1⟩ := index_facts t
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 128 ≤ (i 1).val ∧ (i 1).val < win0_5.index t (1 : Fin 2) * 128 + 128
    rw [e1]; omega

/-- So the score array ends holding the model of the launch arrays. -/
theorem final (c : Dev nD) : (dats m 0 c).arrAt 5 cfg0.N = result m c :=
  (dats m 0 c).arrAt_eq_of_cover 5 (result m c) (fun t _ => flushed_eq m c t) cover

/-- Every weakly fair execution of the kernel's @main terminates with the result array at `result` and the arguments
    unchanged. -/
theorem run_value : θ_run (Cert.KernelIdeal.defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono (fun r h c => ⟨(h c).1.trans (final m c), (h c).2⟩) (Value.run_blocks m ρ)

end Cert.KernelIdeal.KValue

end
-- ==== Proof.RefBody.lean ====
/-
  The two tiled matrix-product kernels of the reference, run on whole staging buffers.

  Each kernel zeroes its scratch at the first slice of the contracted axis, adds the product of the current blocks
  to it at every slice, and at the last slice adds the bias row and stores the tile to its output buffer. Which of
  the two branches a grid point takes is decided by its coordinate on the contracted axis; the triples below are
  stated per case, with the scratch and the output buffer named before and after.
-/
import proofs.«123193_g2000202692251168_pallasbulk_345_5_alg».proof.Proof.Gen.ReferenceIdeal.Launch
import proofs.«123193_g2000202692251168_pallasbulk_345_5_alg».proof.Proof.Gen.ReferenceIdeal.Skeleton
import proofs.«123193_g2000202692251168_pallasbulk_345_5_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-- The zero offsets of a rank-2 rectangle, as a function. -/
theorem off2 : (![0, 0] : Fin 2 → Nat) = fun _ => 0 := by
  funext a; fin_cases a <;> rfl

/-- A load of the whole buffer after a list of stores whose LAST (the list's head) stored the whole buffer reads that
    store's payload, whatever the earlier stores were. -/
theorem readCov_cons_whole {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## Region 0's kernel -/

/-- The point is the first slice of its tile: the contracted-axis coordinate is 0. -/
abbrev isFirst0 (i : grid0.Coords) : Prop :=
  (Scalar.cmpi .ne (Scalar.extui (Scalar.cmpi .eq (BitVec.ofNat 32 (i 2).val) 0#32)) 0#32) = 1#1
/-- The point is the last slice of its tile: the contracted-axis coordinate is 5. -/
abbrev isLast0 (i : grid0.Coords) : Prop := k0_cond2 i = 1#1

set_option maxHeartbeats 1000000 in
/-- A middle slice: the scratch `s` becomes `s` plus the product of the blocks; the output buffer is untouched. -/
theorem kernel0_mid (c : Dev nD) (E : Set ℕ) (i : grid0.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole)
    (hc1 : ¬isFirst0 i) (hc2 : ¬isLast0 i)
    (x0 : Vec F S256x512 .f32) (x1 : Vec F S512x256 .f32) (x2 : Vec F S1x256 .f32) (o : Vec F S256x256 .f32) (s : Vec F S256x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare (k0_pay2 s x0 x1)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [View.read_writes_eq_canon _ _ _ (fun y => ⟨_, List.mem_singleton_self _, View.mem_set_unit_zero off2 inb_S256x256_S256x256_0_0 y⟩),
    View.canon_unit_zero off2]
  simp only [View.readAt_eq_ld, harg7.read_unread, harg3.read_unread, harg4.read_unread,
    View.ld_unit_zero (S := S256x256) off2, View.ld_unit_zero (S := S256x512) off2, View.ld_unit_zero (S := S512x256) off2]

set_option maxHeartbeats 1000000 in
/-- The first slice: whatever the scratch held, it becomes zero plus the product of the blocks. -/
theorem kernel0_first (c : Dev nD) (E : Set ℕ) (i : grid0.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole)
    (hc1 : isFirst0 i) (hc2 : ¬isLast0 i)
    (x0 : Vec F S256x512 .f32) (x1 : Vec F S512x256 .f32) (x2 : Vec F S1x256 .f32) (o : Vec F S256x256 .f32) (s : Vec F S256x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare (k0_pay2 k0_pay1 x0 x1)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [View.read_writes_eq_canon _ _ _ (fun y => ⟨_, List.mem_cons_self .., View.mem_set_unit_zero off2 inb_S256x256_S256x256_0_0 y⟩),
    View.canon_cons_unit_zero off2]
  simp only [readCov_cons_whole (S := S256x256) _ off2, View.readAt_eq_ld, harg7.read_unread, harg3.read_unread, harg4.read_unread, harg5.read_unread,
    View.ld_unit_zero (S := S256x256) off2, View.ld_unit_zero (S := S256x512) off2, View.ld_unit_zero (S := S512x256) off2, View.ld_unit_zero (S := S1x256) off2]

set_option maxHeartbeats 1000000 in
/-- The last slice: the scratch `s` becomes `s` plus the product, and the output buffer that sum plus the bias row. -/
theorem kernel0_last (c : Dev nD) (E : Set ℕ) (i : grid0.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole)
    (hc1 : ¬isFirst0 i) (hc2 : isLast0 i)
    (x0 : Vec F S256x512 .f32) (x1 : Vec F S512x256 .f32) (x2 : Vec F S1x256 .f32) (o : Vec F S256x256 .f32) (s : Vec F S256x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
        ∗ owns (c : Thread nD τ) arg6 fullShare (k0_pay3 (k0_pay2 s x0 x1) x2) ∗ owns (c : Thread nD τ) arg7 fullShare (k0_pay2 s x0 x1)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self .., View.mem_set_unit_zero off2 inb_S256x256_S256x256_0_0 y⟩),
      View.canon_cons_unit_zero off2]
    simp only [readCov_cons_whole (S := S256x256) _ off2, View.readAt_eq_ld, harg7.read_unread, harg3.read_unread, harg4.read_unread, harg5.read_unread,
    View.ld_unit_zero (S := S256x256) off2, View.ld_unit_zero (S := S256x512) off2, View.ld_unit_zero (S := S512x256) off2, View.ld_unit_zero (S := S1x256) off2]
  iexists _; isplitr
  swap; · iexact HS
  ipureintro
  sl_unfold_words
  rw [View.read_writes_eq_canon _ _ _ (fun y => ⟨_, List.mem_cons_self .., View.mem_set_unit_zero off2 inb_S256x256_S256x256_0_0 y⟩),
    View.canon_cons_unit_zero off2]
  simp only [readCov_cons_whole (S := S256x256) _ off2, View.readAt_eq_ld, harg7.read_unread, harg3.read_unread, harg4.read_unread, harg5.read_unread,
    View.ld_unit_zero (S := S256x256) off2, View.ld_unit_zero (S := S256x512) off2, View.ld_unit_zero (S := S512x256) off2, View.ld_unit_zero (S := S1x256) off2]

/-! ## Region 1's kernel -/

/-- Region 1's contracted axis has one slice: every point is the first … -/
abbrev isFirst1 (i : grid1.Coords) : Prop :=
  (Scalar.cmpi .ne (Scalar.extui (Scalar.cmpi .eq (BitVec.ofNat 32 (i 2).val) 0#32)) 0#32) = 1#1
/-- … and the last. -/
abbrev isLast1 (i : grid1.Coords) : Prop := k1_cond2 i = 1#1

set_option maxHeartbeats 1000000 in
/-- The one case: the scratch becomes zero plus the product of the blocks, and the output buffer that plus the bias row. -/
theorem kernel1_only (c : Dev nD) (E : Set ℕ) (i : grid1.Coords)
    (arg3 : Memref sig .tc .vmem S256x512 .f32) (harg3 : arg3.IsWhole) (arg4 : Memref sig .tc .vmem S512x128 .f32) (harg4 : arg4.IsWhole)
    (arg5 : Memref sig .tc .vmem S1x128 .f32) (harg5 : arg5.IsWhole) (arg6 : Memref sig .tc .vmem S256x128 .f32) (harg6 : arg6.IsWhole)
    (arg7 : Memref sig .tc .vmem S256x128 .f32) (harg7 : arg7.IsWhole)
    (hc1 : isFirst1 i) (hc2 : isLast1 i)
    (x0 : Vec F S256x512 .f32) (x1 : Vec F S512x128 .f32) (x2 : Vec F S1x128 .f32) (o : Vec F S256x128 .f32) (s : Vec F S256x128 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
        ∗ owns (c : Thread nD τ) arg6 fullShare (k1_pay3 (k1_pay2 k1_pay1 x0 x1) x2) ∗ owns (c : Thread nD τ) arg7 fullShare (k1_pay2 k1_pay1 x0 x1)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self .., View.mem_set_unit_zero off2 inb_S256x128_S256x128_0_0 y⟩),
      View.canon_cons_unit_zero off2]
    simp only [readCov_cons_whole (S := S256x128) _ off2, View.readAt_eq_ld, harg7.read_unread, harg3.read_unread, harg4.read_unread, harg5.read_unread,
    View.ld_unit_zero (S := S256x128) off2, View.ld_unit_zero (S := S256x512) off2, View.ld_unit_zero (S := S512x128) off2, View.ld_unit_zero (S := S1x128) off2]
  iexists _; isplitr
  swap; · iexact HS
  ipureintro
  sl_unfold_words
  rw [View.read_writes_eq_canon _ _ _ (fun y => ⟨_, List.mem_cons_self .., View.mem_set_unit_zero off2 inb_S256x128_S256x128_0_0 y⟩),
    View.canon_cons_unit_zero off2]
  simp only [readCov_cons_whole (S := S256x128) _ off2, View.readAt_eq_ld, harg7.read_unread, harg3.read_unread, harg4.read_unread, harg5.read_unread,
    View.ld_unit_zero (S := S256x128) off2, View.ld_unit_zero (S := S256x512) off2, View.ld_unit_zero (S := S512x128) off2, View.ld_unit_zero (S := S1x128) off2]

end Cert.ReferenceIdeal.Ref

end
-- ==== Proof.RefData.lean ====
/-
  The reference program's two pipelined regions: what each holds, point by point.

  REGION 0 is the first affine layer, tiled (16 row tiles × 2 column tiles × 6 slices of the contracted
  axis). Its scratch accumulates over the 6 slices of one output tile: it is zeroed at the first slice, every slice
  adds the product of the current blocks, and at the last slice the bias row is added and the tile is stored to the
  output window. `acc0 n` is the scratch after point `n`, by recursion on the point.
  REGION 1 is the second affine layer (16 row tiles, the contracted axis in one slice): every point zeroes the
  scratch, adds the one product, adds the bias and stores the tile.

  The proof data of each region are stated at a PARAMETER `V`, the buffer contents the region is entered with.
-/
import proofs.«123193_g2000202692251168_pallasbulk_345_5_alg».proof.Proof.RefBody
import proofs.«123193_g2000202692251168_pallasbulk_345_5_alg».proof.Proof.Gen.ReferenceIdeal.Launch
import proofs.«123193_g2000202692251168_pallasbulk_345_5_alg».proof.Proof.Gen.ReferenceIdeal.Skeleton
import proofs.«123193_g2000202692251168_pallasbulk_345_5_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Region 0 -/

/-- Window `w`'s block of region 0 at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: the product of the point's blocks added to zero at the first slice of a tile
    (`n % 6 = 0`), to what the point before left otherwise. -/
def acc0 (c : Dev nD) : (n : ℕ) → n < cfg0.N → Vec F S256x256 .f32
  | 0, h => k0_pay2 k0_pay1 (blk0 V c 0 ⟨0, h⟩) (blk0 V c 1 ⟨0, h⟩)
  | n + 1, h => k0_pay2 (if (n + 1) % 6 = 0 then k0_pay1 else acc0 c n (Nat.lt_of_succ_lt h)) (blk0 V c 0 ⟨n + 1, h⟩) (blk0 V c 1 ⟨n + 1, h⟩)

/-- The scoped buffers of the core that region 0 neither stages nor uses: the second region's, at anything. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Region 0's scratch as a whole memref. -/
abbrev scr0 : Memref sig .tc .vmem S256x256 .f32 := Memref.whole cc0_scratch0

/-- The region's invariant before position `n`: at entry every scoped buffer it does not stage at anything; after point
    `n` the scratch at `acc0 n`. -/
def inv0 (c : Dev nD) : (n : ℕ) → n ≤ cfg0.N → sProp 𝕄
  | 0, _ => Pipeline.ΦA spec0 c
  | n + 1, hn => iprop(owns (c : Thread nD τ) scr0 fullShare (acc0 V c n hn) ∗ idle0 c ∗ (∃ r, prngReg c r))

/-- Region 0's proof data: the arrays as found; every input window's buffer at its block; the output window's at the
    accumulated tile plus the bias row (read only at the last slice of a tile, where it is stored and written back);
    the invariant `inv0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (acc0 V c t.val t.isLt) (blk0 V c 2 t)
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = k0_pay3 (acc0 V c t.val t.isLt) (blk0 V c 2 t) := by dsimp only [dat0]

/-- At the first slice of a tile the scratch restarts from zero. -/
theorem acc0_first (c : Dev nD) (t : Fin cfg0.N) (h : t.val % 6 = 0) :
    acc0 V c t.val t.isLt = k0_pay2 k0_pay1 (blk0 V c 0 t) (blk0 V c 1 t) := by
  obtain ⟨n, hn⟩ := t
  cases n with
  | zero => rfl
  | succ n =>
    show k0_pay2 (if (n + 1) % 6 = 0 then k0_pay1 else acc0 V c n (Nat.lt_of_succ_lt hn)) _ _ = _
    rw [if_pos h]

/-- At a later slice it goes on from what the point before left. -/
theorem acc0_next (c : Dev nD) (t : Fin cfg0.N) (h : t.val % 6 ≠ 0) :
    acc0 V c t.val t.isLt = k0_pay2 (acc0 V c (t.val - 1) (Nat.lt_of_le_of_lt (Nat.sub_le _ _) t.isLt)) (blk0 V c 0 t) (blk0 V c 1 t) := by
  obtain ⟨n, hn⟩ := t
  cases n with
  | zero => exact absurd (Nat.zero_mod 6) h
  | succ n =>
    show k0_pay2 (if (n + 1) % 6 = 0 then k0_pay1 else acc0 V c n (Nat.lt_of_succ_lt hn)) _ _ = _
    rw [if_neg h]
    rfl

/-! ### Which case a point is in; where the output window is idle -/

/-- A point is the first slice of its tile exactly when its number is 0 mod 6 … -/
theorem first0_iff : ∀ t : Fin cfg0.N, isFirst0 (grid0.coords t) ↔ t.val % 6 = 0 :=
  (by decide +kernel : ∀ t : Fin grid0.N, isFirst0 (grid0.coords t) ↔ t.val % 6 = 0)
/-- … and the last exactly when it is 5 mod 6. -/
theorem last0_iff : ∀ t : Fin cfg0.N, isLast0 (grid0.coords t) ↔ t.val % 6 = 5 :=
  (by decide +kernel : ∀ t : Fin grid0.N, isLast0 (grid0.coords t) ↔ t.val % 6 = 5)
/-- The input windows are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
/-- The output window is idle at every slice but the last of a tile, and not written back there; at the last it is stored. -/
theorem idle0_3 : ∀ t : Fin cfg0.N, ¬ t.val % 6 = 5 → cfg0.idle 3 (grid0.coords t) = true :=
  (by decide +kernel : ∀ t : Fin grid0.N, ¬ t.val % 6 = 5 → cfg0.idle 3 (grid0.coords t) = true)
theorem live0_3 : ∀ t : Fin cfg0.N, t.val % 6 = 5 → cfg0.idle 3 (grid0.coords t) = false :=
  (by decide +kernel : ∀ t : Fin grid0.N, t.val % 6 = 5 → cfg0.idle 3 (grid0.coords t) = false)
theorem noflush0_3 (t : Fin cfg0.N) (h : ¬ t.val % 6 = 5) : (cfg0.win 3).flush t = false := by
  cases hf : (cfg0.win 3).flush t
  · rfl
  · exact absurd ((flush0_3 t).mp hf) h

/-! ### The windows' buffers when the body runs -/

/-- An input window's buffer holds its block at every point, fetched there or not (an unfetched block's index has not moved). -/
theorem before0_0 (c : Dev nD) (t : Fin cfg0.N) (d) : (dat0 V c).before 0 t d = blk0 V c 0 t :=
  ((dat0 V c).before_in_eq_fetched 0 rfl (fun _ => rfl) (fun _ _ _ => rfl) (fun t => by rw [dat0_after_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [dat0_after_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [dat0_after_2]; unfold Dat.blockOf blk0; rw [dat0_A]; try rfl) t d).trans
    (by unfold Dat.fetched Dat.blockOf blk0; rw [dat0_A]; try rfl)

/-- What the body must leave in an input window's buffer: its block, untouched. -/
theorem leaves0_0 (c : Dev nD) (t : Fin cfg0.N) : (dat0 V c).leavesExact 0 t = owns (c : Thread nD τ) (st0_0 t) fullShare (blk0 V c 0 t) := by
  unfold Dat.leavesExact; rw [live0_0 t, dat0_after_0]
theorem leaves0_1 (c : Dev nD) (t : Fin cfg0.N) : (dat0 V c).leavesExact 1 t = owns (c : Thread nD τ) (st0_1 t) fullShare (blk0 V c 1 t) := by
  unfold Dat.leavesExact; rw [live0_1 t, dat0_after_1]
theorem leaves0_2 (c : Dev nD) (t : Fin cfg0.N) : (dat0 V c).leavesExact 2 t = owns (c : Thread nD τ) (st0_2 t) fullShare (blk0 V c 2 t) := by
  unfold Dat.leavesExact; rw [live0_2 t, dat0_after_2]
/-- At the last slice the output window's buffer must hold the accumulated tile plus the bias row. -/
theorem leaves0_3 (c : Dev nD) (t : Fin cfg0.N) (h : t.val % 6 = 5) :
    (dat0 V c).leavesExact 3 t = owns (c : Thread nD τ) (st0_3 t) fullShare (k0_pay3 (acc0 V c t.val t.isLt) (blk0 V c 2 t)) := by
  unfold Dat.leavesExact; rw [live0_3 t h, dat0_after_3]

/-! ### The invariant, opened -/

theorem inv0_succ (c : Dev nD) (n : ℕ) (hn : n < cfg0.N) :
    inv0 V c (n + 1) hn = iprop(owns (c : Thread nD τ) scr0 fullShare (acc0 V c n hn) ∗ idle0 c ∗ (∃ r, prngReg c r)) := rfl

theorem inv0_pos (c : Dev nD) (n : ℕ) (h : n ≤ cfg0.N) (hz : n ≠ 0) :
    inv0 V c n h = iprop(owns (c : Thread nD τ) scr0 fullShare (acc0 V c (n - 1) (by omega)) ∗ idle0 c ∗ (∃ r, prngReg c r)) := by
  cases n with
  | zero => exact absurd rfl hz
  | succ n => rfl

/-- What the region is entered with, scratch first. -/
theorem phiA0_open (c : Dev nD) :
    (Pipeline.ΦA spec0 c : sProp 𝕄) ⊢ iprop((∃ d, owns (c : Thread nD τ) scr0 fullShare d) ∗ idle0 c ∗ (∃ r, prngReg c r)) := by
  unfold Pipeline.ΦA idle0; rw [scopedRest0_eq]; simp only [scr0, owns_whole]
  iintro ⟨⟨Hs, Hrest⟩, Hp⟩
  isplitl [Hs]; · iexact Hs
  isplitl [Hrest]; · iexact Hrest
  iexact Hp

theorem phiA0_close (c : Dev nD) :
    iprop((∃ d, owns (c : Thread nD τ) scr0 fullShare d) ∗ idle0 c ∗ (∃ r, prngReg c r)) ⊢ (Pipeline.ΦA spec0 c : sProp 𝕄) := by
  unfold Pipeline.ΦA idle0; rw [scopedRest0_eq]; simp only [scr0, owns_whole]
  iintro ⟨Hs, Hrest, Hp⟩
  isplitl [Hs Hrest]
  · isplitl [Hs]; · iexact Hs
    iexact Hrest
  iexact Hp

/-- Before any point the scratch is held at SOME contents: what the first slice of a tile needs. -/
theorem inv0_scratch (c : Dev nD) (n : ℕ) (h : n ≤ cfg0.N) :
    inv0 V c n h ⊢ iprop((∃ d, owns (c : Thread nD τ) scr0 fullShare d) ∗ idle0 c ∗ (∃ r, prngReg c r)) := by
  cases n with
  | zero => exact phiA0_open c
  | succ n =>
    rw [inv0_succ]
    iintro ⟨Hs, Hrest, Hp⟩
    isplitl [Hs]; · iexists _; iexact Hs
    isplitl [Hrest]; · iexact Hrest
    iexact Hp

/-! ### The body at a point -/

set_option maxHeartbeats 2000000 in
/-- The body at any point, by the slice it is: the first restarts the scratch, a middle one adds to what the point before
    left, the last also stores the tile plus the bias row. -/
theorem point0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t)) := by
  unfold bodyAt0
  simp only [before0_0, before0_1, before0_2]
  rw [show (dat0 V c).owesAt () t.succ = (dat0 V c).owesAt () t.castSucc from rfl,
    show (dat0 V c).Φ t.succ = inv0 V c (t.val + 1) t.isLt from rfl,
    show (dat0 V c).Φ t.castSucc = inv0 V c t.val (Nat.le_of_lt t.isLt) from rfl,
    leaves0_0, leaves0_1, leaves0_2, inv0_succ]
  by_cases h0 : t.val % 6 = 0
  · rw [Dat.leavesExact_idle (dat0 V c) 3 t (idle0_3 t (by omega)) (noflush0_3 t (by omega)), acc0_first V c t h0]
    iintro ⟨Hinv, Ho, ⟨%d0, H0⟩, ⟨%d1, H1⟩, ⟨%d2, H2⟩, ⟨%d3, H3⟩⟩
    have hopen := inv0_scratch V c t.val (Nat.le_of_lt t.isLt)
    ihave Hopen := hopen $$ Hinv
    icases Hopen with ⟨⟨%s, HS⟩, Hidle, Hp⟩
    iapply (kernel0_first c Set.univ (grid0.coords t) _ _ _ _ _ _ _ _ _ _ ((first0_iff t).mpr h0)
      (fun h => by have := (last0_iff t).mp h; omega) (blk0 V c 0 t) (blk0 V c 1 t) (blk0 V c 2 t) ((dat0 V c).before 3 t d3) s _)
    isplitl [H0]; · iexact H0
    isplitl [H1]; · iexact H1
    isplitl [H2]; · iexact H2
    isplitl [H3]; · iexact H3
    isplitl [HS]; · iexact HS
    iintro ⟨H0, H1, H2, H3, HS⟩
    isplitl [HS Hidle Hp]
    · isplitl [HS]; · iexact HS
      isplitl [Hidle]; · iexact Hidle
      iexact Hp
    isplitl [Ho]; · iexact Ho
    isplitl [H0]; · iexact H0
    isplitl [H1]; · iexact H1
    isplitl [H2]; · iexact H2
    iexists d3; iexact H3
  · have hz : t.val ≠ 0 := fun e => h0 (by rw [e])
    rw [inv0_pos V c t.val (Nat.le_of_lt t.isLt) hz, acc0_next V c t h0]
    by_cases h5 : t.val % 6 = 5
    · rw [leaves0_3 V c t h5, acc0_next V c t h0]
      iintro ⟨⟨HS, Hidle, Hp⟩, Ho, ⟨%d0, H0⟩, ⟨%d1, H1⟩, ⟨%d2, H2⟩, ⟨%d3, H3⟩⟩
      iapply (kernel0_last c Set.univ (grid0.coords t) _ _ _ _ _ _ _ _ _ _ (fun h => h0 ((first0_iff t).mp h))
        ((last0_iff t).mpr h5) (blk0 V c 0 t) (blk0 V c 1 t) (blk0 V c 2 t) ((dat0 V c).before 3 t d3)
        (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hidle Hp]
      · isplitl [HS]; · iexact HS
        isplitl [Hidle]; · iexact Hidle
        iexact Hp
      isplitl [Ho]; · iexact Ho
      isplitl [H0]; · iexact H0
      isplitl [H1]; · iexact H1
      isplitl [H2]; · iexact H2
      iexact H3
    · rw [Dat.leavesExact_idle (dat0 V c) 3 t (idle0_3 t h5) (noflush0_3 t h5)]
      iintro ⟨⟨HS, Hidle, Hp⟩, Ho, ⟨%d0, H0⟩, ⟨%d1, H1⟩, ⟨%d2, H2⟩, ⟨%d3, H3⟩⟩
      iapply (kernel0_mid c Set.univ (grid0.coords t) _ _ _ _ _ _ _ _ _ _ (fun h => h0 ((first0_iff t).mp h))
        (fun h => h5 ((last0_iff t).mp h)) (blk0 V c 0 t) (blk0 V c 1 t) (blk0 V c 2 t) ((dat0 V c).before 3 t d3)
        (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hidle Hp]
      · isplitl [HS]; · iexact HS
        isplitl [Hidle]; · iexact Hidle
        iexact Hp
      isplitl [Ho]; · iexact Ho
      isplitl [H0]; · iexact H0
      isplitl [H1]; · iexact H1
      isplitl [H2]; · iexact H2
      iexists d3; iexact H3

/-- The body obligation of region 0 at every point. -/
theorem obligation0 (c : Dev nD) : BodyObligation (dat0 (F := F) V c) (defs₀ (F := F)) Variants.none () Set.univ := fun t => by
  rw [bigSep_W0, bigSep_W0]
  exact point0 V c t

/-- What the region is entered with is its invariant before the first point. -/
theorem inv0_in (c : Dev nD) : Pipeline.ΦA spec0 c ⊢ (dat0 V c).Φ 0 := by
  rw [show (dat0 V c).Φ 0 = inv0 V c 0 (Nat.zero_le _) from rfl]
  exact Idealize.SL.BI.Entails.refl _

/-- After the last point the invariant gives the scoped buffers back at anything. -/
theorem inv0_out (c : Dev nD) : (dat0 V c).Φ (Fin.last cfg0.N) ⊢ Pipeline.ΦA spec0 c := by
  rw [show (dat0 V c).Φ (Fin.last cfg0.N) = inv0 V c cfg0.N (Nat.le_refl _) from rfl]
  exact (inv0_scratch V c cfg0.N (Nat.le_refl _)).trans (phiA0_close c)

/-! ## Region 1 -/

/-- Window `w`'s block of region 1 at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data: every point is the first and the last slice of its tile, so the output window's buffer holds
    the product added to zero, plus the bias row; the scratch is rewritten whole at every point, so the invariant
    need not name it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (k1_pay2 k1_pay1 (blk1 V c 0 t) (blk1 V c 1 t)) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = k1_pay3 (k1_pay2 k1_pay1 (blk1 V c 0 t) (blk1 V c 1 t)) (blk1 V c 2 t) := by dsimp only [dat1]

/-! ### Region 1's body at a point -/

/-- Every point of region 1 is the first slice of its tile … -/
theorem first1_all : ∀ t : Fin cfg1.N, isFirst1 (grid1.coords t) :=
  (by decide +kernel : ∀ t : Fin grid1.N, isFirst1 (grid1.coords t))
/-- … and the last. -/
theorem last1_all : ∀ t : Fin cfg1.N, isLast1 (grid1.coords t) :=
  (by decide +kernel : ∀ t : Fin grid1.N, isLast1 (grid1.coords t))
/-- No window of region 1 is ever idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false :=
  (by decide +kernel : ∀ t : Fin grid1.N, cfg1.idle 3 (grid1.coords t) = false)

theorem before1_0 (c : Dev nD) (t : Fin cfg1.N) (d) : (dat1 V c).before 0 t d = blk1 V c 0 t :=
  ((dat1 V c).before_in_eq_fetched 0 rfl (fun _ => rfl) (fun _ _ _ => rfl) (fun t => by rw [dat1_after_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [dat1_after_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [dat1_after_2]; unfold Dat.blockOf blk1; rw [dat1_A]; try rfl) t d).trans
    (by unfold Dat.fetched Dat.blockOf blk1; rw [dat1_A]; try rfl)

theorem leaves1_0 (c : Dev nD) (t : Fin cfg1.N) : (dat1 V c).leavesExact 0 t = owns (c : Thread nD τ) (st1_0 t) fullShare (blk1 V c 0 t) := by
  unfold Dat.leavesExact; rw [live1_0 t, dat1_after_0]
theorem leaves1_1 (c : Dev nD) (t : Fin cfg1.N) : (dat1 V c).leavesExact 1 t = owns (c : Thread nD τ) (st1_1 t) fullShare (blk1 V c 1 t) := by
  unfold Dat.leavesExact; rw [live1_1 t, dat1_after_1]
theorem leaves1_2 (c : Dev nD) (t : Fin cfg1.N) : (dat1 V c).leavesExact 2 t = owns (c : Thread nD τ) (st1_2 t) fullShare (blk1 V c 2 t) := by
  unfold Dat.leavesExact; rw [live1_2 t, dat1_after_2]
theorem leaves1_3 (c : Dev nD) (t : Fin cfg1.N) :
    (dat1 V c).leavesExact 3 t = owns (c : Thread nD τ) (st1_3 t) fullShare (k1_pay3 (k1_pay2 k1_pay1 (blk1 V c 0 t) (blk1 V c 1 t)) (blk1 V c 2 t)) := by
  unfold Dat.leavesExact; rw [live1_3 t, dat1_after_3]

/-- Region 1's scratch as a whole memref. -/
abbrev scr1 : Memref sig .tc .vmem S256x128 .f32 := Memref.whole cc1_scratch0

/-- The scoped buffers of the core that region 1 neither stages nor uses: the first region's, at anything. -/
def idle1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What region 1 is entered with, scratch first. -/
theorem phiA1_open (c : Dev nD) :
    (Pipeline.ΦA spec1 c : sProp 𝕄) ⊢ iprop((∃ d, owns (c : Thread nD τ) scr1 fullShare d) ∗ idle1 c ∗ (∃ r, prngReg c r)) := by
  unfold Pipeline.ΦA idle1; rw [scopedRest1_eq]; simp only [scr1, owns_whole]
  iintro ⟨⟨R0, R1, R2, R3, R4, R5, R6, R7, R8, Hs⟩, Hp⟩
  isplitl [Hs]; · iexact Hs
  isplitr [Hp]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hp

theorem phiA1_close (c : Dev nD) :
    iprop((∃ d, owns (c : Thread nD τ) scr1 fullShare d) ∗ idle1 c ∗ (∃ r, prngReg c r)) ⊢ (Pipeline.ΦA spec1 c : sProp 𝕄) := by
  unfold Pipeline.ΦA idle1; rw [scopedRest1_eq]; simp only [scr1, owns_whole]
  iintro ⟨Hs, ⟨R0, R1, R2, R3, R4, R5, R6, R7, R8⟩, Hp⟩
  isplitr [Hp]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact Hs
  iexact Hp

set_option maxHeartbeats 2000000 in
/-- The body at any point of region 1: the scratch, held at anything, is rewritten whole; the tile plus the bias row goes
    to the output window's buffer. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
        iprop((dat1 V c).Φ t.succ ∗ (dat1 V c).owesAt () t.succ
          ∗ (dat1 V c).leavesExact 0 t ∗ (dat1 V c).leavesExact 1 t ∗ (dat1 V c).leavesExact 2 t ∗ (dat1 V c).leavesExact 3 t)) := by
  unfold bodyAt1
  simp only [before1_0, before1_1, before1_2]
  rw [show (dat1 V c).owesAt () t.succ = (dat1 V c).owesAt () t.castSucc from rfl,
    show (dat1 V c).Φ t.succ = Pipeline.ΦA spec1 c from rfl,
    show (dat1 V c).Φ t.castSucc = Pipeline.ΦA spec1 c from rfl,
    leaves1_0, leaves1_1, leaves1_2, leaves1_3]
  iintro ⟨Hinv, Ho, ⟨%d0, H0⟩, ⟨%d1, H1⟩, ⟨%d2, H2⟩, ⟨%d3, H3⟩⟩
  have hopen := phiA1_open (F := F) c
  ihave Hopen := hopen $$ Hinv
  icases Hopen with ⟨⟨%s, HS⟩, Hidle, Hp⟩
  iapply (kernel1_only c Set.univ (grid1.coords t) _ _ _ _ _ _ _ _ scr1 (Memref.isWhole_whole _) (first1_all t) (last1_all t)
    (blk1 V c 0 t) (blk1 V c 1 t) (blk1 V c 2 t) ((dat1 V c).before 3 t d3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hidle Hp]
  · iapply (phiA1_close c)
    isplitl [HS]; · iexists _; iexact HS
    isplitl [Hidle]; · iexact Hidle
    iexact Hp
  isplitl [Ho]; · iexact Ho
  isplitl [H0]; · iexact H0
  isplitl [H1]; · iexact H1
  isplitl [H2]; · iexact H2
  iexact H3

/-- The body obligation of region 1 at every point. -/
theorem obligation1 (c : Dev nD) : BodyObligation (dat1 (F := F) V c) (defs₀ (F := F)) Variants.none () Set.univ := fun t => by
  rw [bigSep_W1, bigSep_W1]
  exact point1 V c t

end Regions

/-! ## The buffer contents at each boundary of @main -/

variable (m : (ℓ : Loc nD τ sig) → Buf (Elt F) ℓ)

/-- Core `c`'s buffers at launch. -/
abbrev Wa : Dev nD → Valuation τ sig (Elt F) := fun c b => m (c, b)
/-- After the host reshape: what region 0 is entered with. -/
abbrev Wb : Dev nD → Valuation τ sig (Elt F) := fun c => StableHlo.after hostOps0 (Wa m c)
abbrev Vb : (c : Dev nD) → (b : Ref sig .tc) → Buf (Elt F) ((c : Thread nD τ).loc b) := fun c b => Wb m c b
/-- After region 0: its arrays at what its write-backs leave, every other buffer as entered. What region 1 is entered with. -/
def Wc (c : Dev nD) : Valuation τ sig (Elt F) :=
  Pipeline.withArrays spec0 c (Wb m c) fun w => (dat0 (Vb m) c).arrAt w cfg0.N
abbrev Vc : (c : Dev nD) → (b : Ref sig .tc) → Buf (Elt F) ((c : Thread nD τ).loc b) := fun c b => Wc m c b
/-- After region 1: what @main returns with. -/
def Wd (c : Dev nD) : Valuation τ sig (Elt F) :=
  Pipeline.withArrays spec1 c (Wc m c) fun w => (dat1 (Vc m) c).arrAt w cfg1.N

end Cert.ReferenceIdeal.Ref

end
-- ==== Proof.RefValue0.lean ====
/-
  What region 0 leaves in its result array: the first affine layer of the array it reads.

  Point t = (i·2 + j)·6 + k works on output tile (i, j) — rows 256·i …, columns 256·j … — at slice k of the
  contracted axis (columns 512·k … of the flattened batch, rows 512·k … of the weights). The scratch restarts from
  zero at k = 0 and every point adds the product of its two blocks, so after slice k it holds, entry by entry, the
  sum of the first (k + 1)·512 products of the contraction; after the sixth slice that is the whole sum over the
  3072 columns, the bias row is added, and the tile is written back. The 32 written-back tiles cover the array.
  Only commutativity and associativity of addition on the extended reals are used (a finite sum cut into
  consecutive stretches), and `0 + x = x`.
-/
import proofs.«123193_g2000202692251168_pallasbulk_345_5_alg».proof.Proof.RefData
import proofs.«123193_g2000202692251168_pallasbulk_345_5_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Intervals
import Mathlib.Algebra.BigOperators.Fin

set_option maxRecDepth 16384

noncomputable section

namespace Cert.ReferenceIdeal.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen
open Idealize.ShloMosaic.ValueIdx

variable (V : (c : Dev nD) → (b : Ref sig .tc) → Buf (Elt Ideal) ((c : Thread nD τ).loc b))

/-! ## The contracted axis, slice by slice -/

/-- Column `n` of the contracted axis; a natural past the axis is folded back (none such is ever read). -/
def featCol (n : ℕ) : Fin 3072 := ⟨n % 3072, Nat.mod_lt _ (by decide)⟩

/-- A natural below 3072 is its own column. -/
theorem featCol_val (n : ℕ) (h : n < 3072) : (featCol n).val = n := Nat.mod_eq_of_lt h

/-- Every column of the axis is the column of its own number. -/
theorem featCol_fin (k : Fin 3072) : featCol k.val = k := Fin.ext (Nat.mod_eq_of_lt k.isLt)

/-- A sum over the whole axis is the sum over the first 3072 naturals. -/
theorem sum_featCol (f : Fin 3072 → EReal) : ∑ k : Fin 3072, f k = ∑ n ∈ Finset.range 3072, f (featCol n) := by
  rw [Finset.sum_range]
  exact Finset.sum_congr rfl fun k _ => by rw [featCol_fin]

/-- The first `k + 1` slices are the first `k` slices and then slice `k`, column by column. -/
theorem sum_featSlice (f : Fin 3072 → EReal) (k : ℕ) :
    ∑ n ∈ Finset.range (512 * (k + 1)), f (featCol n)
      = ∑ n ∈ Finset.range (512 * k), f (featCol n) + ∑ cc : Fin 512, f (featCol (512 * k + cc.val)) := by
  rw [show 512 * (k + 1) = 512 * k + 512 from by ring, Finset.sum_range_add]
  exact congrArg (∑ n ∈ Finset.range (512 * k), f (featCol n) + ·) (Finset.sum_range fun x => f (featCol (512 * k + x)))

/-! ## The payloads at an entry -/

/-- The tile the scratch restarts from is zero at every entry: a splat of the word of `0.0`. -/
theorem zeroTile0_apply (r q : Fin 256) : (k0_pay1 (F := Ideal)) (ix2 r q) = 0 := by
  unfold k0_pay1
  rw [shapeCast_self]
  exact Ideal.ofBits_zero_f32

/-- The dimension numbers of the block product: a [256,512] block times a [512,256] block, contracting the first
    operand's columns against the second's rows. -/
abbrev dot0 := dot_S256x512_S512x256_S256x256_1_0_0_1_n_n

/-- The operand indices of the product at output entry `j` and contraction position `k`: the left operand is read at
    (row of `j`, `k`), the right one at (`k`, column of `j`). One lemma per operand axis. -/
theorem dot0_lhs_row (j : S256x256.Idx) (k : dot0.contr.Idx) : (dot0.lhsIdx j k 0 : ℕ) = j 0 := by
  simp [DotDims.lhsIdx, dot0, dot_S256x512_S512x256_S256x256_1_0_0_1_n_n]; rfl
theorem dot0_lhs_col (j : S256x256.Idx) (k : dot0.contr.Idx) : (dot0.lhsIdx j k 1 : ℕ) = k ⟨0, by decide⟩ := by
  simp [DotDims.lhsIdx, dot0, dot_S256x512_S512x256_S256x256_1_0_0_1_n_n]; rfl
theorem dot0_rhs_row (j : S256x256.Idx) (k : dot0.contr.Idx) : (dot0.rhsIdx j k 0 : ℕ) = k ⟨0, by decide⟩ := by
  simp [DotDims.rhsIdx, dot0, dot_S256x512_S512x256_S256x256_1_0_0_1_n_n]; rfl
theorem dot0_rhs_col (j : S256x256.Idx) (k : dot0.contr.Idx) : (dot0.rhsIdx j k 1 : ℕ) = j 1 := by
  simp [DotDims.rhsIdx, dot0, dot_S256x512_S512x256_S256x256_1_0_0_1_n_n]; rfl

/-- The block product into a zero accumulator, at entry `(r, q)`: the sum over the 512 contracted positions of the
    left block's row `r` against the right block's column `q`. -/
theorem blockProduct0_apply (x0 : FVec Ideal S256x512 .f32) (x1 : FVec Ideal S512x256 .f32) (r q : Fin 256) :
    matmul dot0 none x0 x1 (constant (F := Ideal) S256x256 .f32 0x00000000#32) (ix2 r q)
      = ∑ cc : Fin 512, x0 (ix2 r cc) * x1 (ix2 cc q) := by
  refine (Ideal.matmul_constant_zero_apply dot0 none x0 x1 (ix2 r q)).trans ?_
  rw [← Equiv.sum_comp (contrEquiv1 dot0 512 rfl rfl).symm]
  refine Finset.sum_congr rfl fun cc _ => ?_
  congr 2
  · apply Shape.idx_ext₂
    · exact dot0_lhs_row _ _
    · exact (dot0_lhs_col _ _).trans (contrEquiv1_symm_val dot0 512 rfl rfl cc)
  · apply Shape.idx_ext₂
    · exact (dot0_rhs_row _ _).trans (contrEquiv1_symm_val dot0 512 rfl rfl cc)
    · exact dot0_rhs_col _ _

/-- One accumulation step at entry `(r, q)`: what the scratch held there plus the block product there (the two shape
    casts are to the same shape). -/
theorem accStep0_apply (s : Vec Ideal S256x256 .f32) (x0 : Vec Ideal S256x512 .f32) (x1 : Vec Ideal S512x256 .f32) (r q : Fin 256) :
    k0_pay2 s x0 x1 (ix2 r q) = s (ix2 r q) + ∑ cc : Fin 512, x0 (ix2 r cc) * x1 (ix2 cc q) := by
  unfold k0_pay2
  rw [shapeCast_self, shapeCast_self]
  exact congrArg (s (ix2 r q) + ·) (blockProduct0_apply x0 x1 r q)

/-- The epilogue at entry `(r, q)`: the accumulated tile there plus the bias row's entry `q`, the row being repeated down
    the 256 rows. -/
theorem addBias0_apply (s : Vec Ideal S256x256 .f32) (b : Vec Ideal S1x256 .f32) (r q : Fin 256) :
    k0_pay3 s b (ix2 r q) = s (ix2 r q) + b (ix2 0 q) := by
  unfold k0_pay3
  refine congrArg (s (ix2 r q) + ·) ?_
  exact broadcastTo_apply b broadcasts_S1x256_S256x256 (ix2 r q) (ix2 0 q) (by
    intro a; match a with | ⟨0, _⟩ => rfl | ⟨1, _⟩ => rfl)

/-! ## The arrays and the blocks at their literal types -/

/-- The three arrays region 0 reads (the flattened batch, the weights, the bias row) and its three input blocks at a
    point, each at its literal shape. -/
abbrev batch0 (c : Dev nD) : Vec Ideal S4096x3072 .f32 := V c main_v0
abbrev weights0 (c : Dev nD) : Vec Ideal S3072x512 .f32 := V c main_arg1
abbrev bias0 (c : Dev nD) : Vec Ideal S1x512 .f32 := V c main_arg2
abbrev batchBlk0 (c : Dev nD) (t : Fin cfg0.N) : Vec Ideal S256x512 .f32 := blk0 V c 0 t
abbrev weightBlk0 (c : Dev nD) (t : Fin cfg0.N) : Vec Ideal S512x256 .f32 := blk0 V c 1 t
abbrev biasBlk0 (c : Dev nD) (t : Fin cfg0.N) : Vec Ideal S1x256 .f32 := blk0 V c 2 t

/-- The block index of each window at point `t`, in closed form, decided over the 192 points: the row tile is `t / 12`,
    the column tile `(t / 6) % 2`, the slice of the contracted axis `t % 6`. -/
theorem index0_closed : ∀ t : Fin cfg0.N,
    win0_0.index t (0 : Fin 2) = t.val / 12 ∧ win0_0.index t (1 : Fin 2) = t.val % 6
    ∧ win0_1.index t (0 : Fin 2) = t.val % 6 ∧ win0_1.index t (1 : Fin 2) = t.val / 6 % 2
    ∧ win0_2.index t (0 : Fin 2) = 0 ∧ win0_2.index t (1 : Fin 2) = t.val / 6 % 2
    ∧ win0_3.index t (0 : Fin 2) = t.val / 12 ∧ win0_3.index t (1 : Fin 2) = t.val / 6 % 2 :=
  (by decide +kernel : ∀ t : Fin grid0.N, _)

/-- The batch's block at point `t` is rows `256·(t / 12) …` and columns `512·(t % 6) …` of the flattened batch: a
    block's element sits, on each axis, at block index × block size + its own coordinate. -/
theorem batchBlk0_apply (c : Dev nD) (t : Fin cfg0.N) (r : Fin 256) (cc : Fin 512) (n : Fin 4096) (k : Fin 3072)
    (hn : n.val = 256 * (t.val / 12) + r.val) (hk : k.val = 512 * (t.val % 6) + cc.val) :
    batchBlk0 V c t (ix2 r cc) = batch0 V c (ix2 n k) := by
  obtain ⟨e0, e1, -⟩ := index0_closed t
  show V c main_v0 (((cfg0.win 0).blk t).view.emb (ix2 r cc)) = V c main_v0 (ix2 n k)
  refine congrArg _ (funext fun a => Fin.ext ?_)
  match a with
  | ⟨0, _⟩ => show win0_0.index t (0 : Fin 2) * 256 + 1 * r.val = n.val; rw [e0, hn]; omega
  | ⟨1, _⟩ => show win0_0.index t (1 : Fin 2) * 512 + 1 * cc.val = k.val; rw [e1, hk]; omega

/-- The weights' block at point `t` is rows `512·(t % 6) …` and columns `256·((t / 6) % 2) …` of the weights. -/
theorem weightBlk0_apply (c : Dev nD) (t : Fin cfg0.N) (cc : Fin 512) (q : Fin 256) (k : Fin 3072) (j : Fin 512)
    (hk : k.val = 512 * (t.val % 6) + cc.val) (hj : j.val = 256 * (t.val / 6 % 2) + q.val) :
    weightBlk0 V c t (ix2 cc q) = weights0 V c (ix2 k j) := by
  obtain ⟨-, -, e0, e1, -⟩ := index0_closed t
  show V c main_arg1 (((cfg0.win 1).blk t).view.emb (ix2 cc q)) = V c main_arg1 (ix2 k j)
  refine congrArg _ (funext fun a => Fin.ext ?_)
  match a with
  | ⟨0, _⟩ => show win0_1.index t (0 : Fin 2) * 512 + 1 * cc.val = k.val; rw [e0, hk]; omega
  | ⟨1, _⟩ => show win0_1.index t (1 : Fin 2) * 256 + 1 * q.val = j.val; rw [e1, hj]; omega

/-- The bias block at point `t` is columns `256·((t / 6) % 2) …` of the one bias row. -/
theorem biasBlk0_apply (c : Dev nD) (t : Fin cfg0.N) (q : Fin 256) (j : Fin 512)
    (hj : j.val = 256 * (t.val / 6 % 2) + q.val) :
    biasBlk0 V c t (ix2 0 q) = bias0 V c (ix2 0 j) := by
  obtain ⟨-, -, -, -, e0, e1, -⟩ := index0_closed t
  show V c main_arg2 (((cfg0.win 2).blk t).view.emb (ix2 0 q)) = V c main_arg2 (ix2 0 j)
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * q.val = j.val; rw [e1, hj]; omega

/-! ## The scratch after each point: the partial sums of one entry's contraction -/

/-- One product of entry `(n, j)`'s contraction: row `n` of the flattened batch against column `j` of the weights,
    at contracted column `k`. -/
def featTerm (c : Dev nD) (n : Fin 4096) (j : Fin 512) (k : Fin 3072) : EReal :=
  batch0 V c (ix2 n k) * weights0 V c (ix2 k j)

/-- The products of the two blocks of point `t`, read at a tile entry, are the contraction's products over
    slice `t % 6` of the contracted axis. -/
theorem slice0_products (c : Dev nD) (t : Fin cfg0.N) (n : Fin 4096) (j : Fin 512) (r q : Fin 256)
    (hn : n.val = 256 * (t.val / 12) + r.val) (hj : j.val = 256 * (t.val / 6 % 2) + q.val) :
    ∑ cc : Fin 512, batchBlk0 V c t (ix2 r cc) * weightBlk0 V c t (ix2 cc q)
      = ∑ cc : Fin 512, featTerm V c n j (featCol (512 * (t.val % 6) + cc.val)) := by
  refine Finset.sum_congr rfl fun cc _ => ?_
  have hlt : cc.val < 512 := cc.isLt
  have hm : t.val % 6 < 6 := Nat.mod_lt _ (by decide)
  have hc : (featCol (512 * (t.val % 6) + cc.val)).val = 512 * (t.val % 6) + cc.val := featCol_val _ (by omega)
  exact congrArg₂ (· * ·) (batchBlk0_apply V c t r cc n _ hn hc) (weightBlk0_apply V c t cc q _ j hc hj)

/-- After the point at slice `k` of a tile, the scratch holds at entry `(r, q)` the sum of the first `k + 1` slices
    of the contraction of the array entry `(n, j)` the tile entry stands for: zero plus the first slice at `k = 0`,
    one more slice at each later point. -/
theorem acc0_partial (c : Dev nD) (n : Fin 4096) (j : Fin 512) (r q : Fin 256) :
    ∀ k : ℕ, k < 6 → ∀ t : Fin cfg0.N, t.val % 6 = k → n.val = 256 * (t.val / 12) + r.val →
      j.val = 256 * (t.val / 6 % 2) + q.val →
      acc0 V c t.val t.isLt (ix2 r q) = ∑ m ∈ Finset.range (512 * (k + 1)), featTerm V c n j (featCol m)
  | 0, _, t, ht, hn, hj => by
    have e : ∑ m ∈ Finset.range (512 * 0), featTerm V c n j (featCol m) = 0 := by
      rw [Nat.mul_zero, Finset.range_zero, Finset.sum_empty]
    refine (congrFun (acc0_first V c t ht) (ix2 r q)).trans ?_
    refine (accStep0_apply _ (batchBlk0 V c t) (weightBlk0 V c t) r q).trans ?_
    rw [zeroTile0_apply, zero_add, slice0_products V c t n j r q hn hj, ht, sum_featSlice (featTerm V c n j) 0, e, zero_add]
  | k + 1, hk, t, ht, hn, hj => by
    have hN : cfg0.N = 192 := N_0
    have hlt : t.val < cfg0.N := t.isLt
    have ht' : t.val - 1 < cfg0.N := by omega
    refine (congrFun (acc0_next V c t (by omega)) (ix2 r q)).trans ?_
    refine (accStep0_apply _ (batchBlk0 V c t) (weightBlk0 V c t) r q).trans ?_
    rw [slice0_products V c t n j r q hn hj, ht, sum_featSlice (featTerm V c n j) (k + 1)]
    refine congrArg (· + ∑ cc : Fin 512, featTerm V c n j (featCol (512 * (k + 1) + cc.val))) ?_
    exact acc0_partial c n j r q k (by omega) ⟨t.val - 1, ht'⟩ (by show (t.val - 1) % 6 = k; omega)
      (by show n.val = 256 * ((t.val - 1) / 12) + r.val; omega)
      (by show j.val = 256 * ((t.val - 1) / 6 % 2) + q.val; omega)

/-! ## What a tile's last point writes back -/

/-- At the last slice of a tile the output window holds, at `(r, q)`, the first affine layer at the array entry
    `(n, j)` it stands for: the six slices are the whole contraction, and the broadcast bias row adds `b (0, j)`. -/
theorem flushed0_entry (c : Dev nD) (t : Fin cfg0.N) (ht : t.val % 6 = 5) (r q : Fin 256) (n : Fin 4096) (j : Fin 512)
    (hn : n.val = 256 * (t.val / 12) + r.val) (hj : j.val = 256 * (t.val / 6 % 2) + q.val) :
    k0_pay3 (acc0 V c t.val t.isLt) (biasBlk0 V c t) (ix2 r q)
      = Cert.Spec.feat (V c main_v0) (V c main_arg1) (V c main_arg2) (ix2 n j) := by
  refine (addBias0_apply _ (biasBlk0 V c t) r q).trans ?_
  rw [acc0_partial V c n j r q 5 (by decide) t ht hn hj, biasBlk0_apply V c t q j hj,
    show 512 * (5 + 1) = 3072 from rfl, ← sum_featCol (featTerm V c n j)]
  rfl

/-- What a flushing point writes back is its block of the first affine layer of the region's entry arrays. -/
theorem flushed0_eq (c : Dev nD) (t : Fin cfg0.N) (hf : (cfg0.win 3).flush t = true) :
    (dat0 (F := Ideal) V c).flushed 3 t
      = ((cfg0.win 3).blk t).view.read (Elt Ideal) (Cert.Spec.feat (V c main_v0) (V c main_arg1) (V c main_arg2)) := by
  have ht : t.val % 6 = 5 := (flush0_3 t).mp hf
  have hN : cfg0.N = 192 := N_0
  have hlt : t.val < cfg0.N := t.isLt
  obtain ⟨e0, e1⟩ : win0_3.index t (0 : Fin 2) = t.val / 12 ∧ win0_3.index t (1 : Fin 2) = t.val / 6 % 2 :=
    (index0_closed t).2.2.2.2.2.2
  show (cfg0.win 3).cut (grid0.coords t) ((dat0 V c).after 3 t) = _
  rw [dat0_after_3]
  funext y
  obtain ⟨r, q, rfl⟩ : ∃ (r q : Fin 256), y = ix2 r q := ⟨y 0, y 1, eq_ix2 (n0 := 256) (n1 := 256) y⟩
  have hr : r.val < 256 := r.isLt
  have hq : q.val < 256 := q.isLt
  have hemb : ((cfg0.win 3).blk t).view.emb (ix2 r q)
      = ix2 (n0 := 4096) (n1 := 512) ⟨256 * (t.val / 12) + r.val, by omega⟩ ⟨256 * (t.val / 6 % 2) + q.val, by omega⟩ := by
    funext a
    apply Fin.ext
    match a with
    | ⟨0, _⟩ => show win0_3.index t (0 : Fin 2) * 256 + 1 * r.val = 256 * (t.val / 12) + r.val; rw [e0]; omega
    | ⟨1, _⟩ => show win0_3.index t (1 : Fin 2) * 256 + 1 * q.val = 256 * (t.val / 6 % 2) + q.val; rw [e1]; omega
  show k0_pay3 (acc0 V c t.val t.isLt) (blk0 V c 2 t) (ix2 r q)
    = Cert.Spec.feat (V c main_v0) (V c main_arg1) (V c main_arg2) (((cfg0.win 3).blk t).view.emb (ix2 r q))
  exact (flushed0_entry V c t ht r q _ _ rfl rfl).trans (congrArg _ hemb.symm)

/-- Every entry `(n, jj)` of the result array lies in the block written back at the last slice of tile
    `(n / 256, jj / 256)`. -/
theorem cover0 (i : S4096x512.Idx) :
    ∃ t : Fin cfg0.N, (cfg0.win 3).flush t = true ∧ i ∈ ((cfg0.win 3).blk t).view.set := by
  have h0 : (i 0).val < 4096 := (i 0).isLt
  have h1 : (i 1).val < 512 := (i 1).isLt
  have hN : cfg0.N = 192 := N_0
  obtain ⟨t, ht⟩ : ∃ t : Fin cfg0.N, t.val = ((i 0).val / 256 * 2 + (i 1).val / 256) * 6 + 5 :=
    ⟨⟨((i 0).val / 256 * 2 + (i 1).val / 256) * 6 + 5, by omega⟩, rfl⟩
  obtain ⟨e0, e1⟩ : win0_3.index t (0 : Fin 2) = t.val / 12 ∧ win0_3.index t (1 : Fin 2) = t.val / 6 % 2 :=
    (index0_closed t).2.2.2.2.2.2
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e0]; omega
  | ⟨1, _⟩ =>
    show win0_3.index t (1 : Fin 2) * 256 ≤ (i 1).val ∧ (i 1).val < win0_3.index t (1 : Fin 2) * 256 + 256
    rw [e1]; omega

/-- After all 192 points, region 0's result array holds, at `(n, j)`, the sum over the whole contracted axis of the
    flattened batch's row `n` against the weights' column `j`, plus the bias. -/
theorem region0_value (c : Dev nD) :
    (dat0 (F := Ideal) V c).arrAt 3 cfg0.N = Cert.Spec.feat (V c main_v0) (V c main_arg1) (V c main_arg2) :=
  (dat0 (F := Ideal) V c).arrAt_eq_of_cover 3 _ (flushed0_eq V c) cover0

end Cert.ReferenceIdeal.Ref

end
-- ==== Proof.RefValue1.lean ====
/-
  What region 1 leaves in its result array: the second affine layer of the array it reads.
-/
import proofs.«123193_g2000202692251168_pallasbulk_345_5_alg».proof.Proof.RefData
import proofs.«123193_g2000202692251168_pallasbulk_345_5_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen
open Idealize.ShloMosaic.ValueIdx

/-! ## The second layer's product at an entry

The product contracts axis 1 of the [256,512] tile against axis 0 of the [512,128] weights; the result's axes are the
tile's rows and the weights' columns. Read at result entry `(r, h)` and contraction position `k`, the left operand's
index is `(r, k)` and the right operand's is `(k, h)`. -/

/-- The left operand's row is the result's row. -/
theorem head_lhs_row (r : Fin 256) (h : Fin 128) (k : dot_S256x512_S512x128_S256x128_1_0_0_1_n_n.contr.Idx) :
    (dot_S256x512_S512x128_S256x128_1_0_0_1_n_n.lhsIdx (ix2 r h) k 0).val = r.val := by
  simp [DotDims.lhsIdx, dot_S256x512_S512x128_S256x128_1_0_0_1_n_n]
  rfl

/-- The left operand's column is the contraction position. -/
theorem head_lhs_col (r : Fin 256) (h : Fin 128) (k : dot_S256x512_S512x128_S256x128_1_0_0_1_n_n.contr.Idx) :
    (dot_S256x512_S512x128_S256x128_1_0_0_1_n_n.lhsIdx (ix2 r h) k 1).val = (k ⟨0, by decide⟩).val :=
  dot_S256x512_S512x128_S256x128_1_0_0_1_n_n.lhsIdx_val_of_single (cl := 1) rfl (ix2 r h) k

/-- The right operand's row is the contraction position. -/
theorem head_rhs_row (r : Fin 256) (h : Fin 128) (k : dot_S256x512_S512x128_S256x128_1_0_0_1_n_n.contr.Idx) :
    (dot_S256x512_S512x128_S256x128_1_0_0_1_n_n.rhsIdx (ix2 r h) k 0).val = (k ⟨0, by decide⟩).val :=
  dot_S256x512_S512x128_S256x128_1_0_0_1_n_n.rhsIdx_val_of_single (cr := 0) rfl (ix2 r h) k

/-- The right operand's column is the result's column. -/
theorem head_rhs_col (r : Fin 256) (h : Fin 128) (k : dot_S256x512_S512x128_S256x128_1_0_0_1_n_n.contr.Idx) :
    (dot_S256x512_S512x128_S256x128_1_0_0_1_n_n.rhsIdx (ix2 r h) k 1).val = h.val := by
  simp [DotDims.rhsIdx, dot_S256x512_S512x128_S256x128_1_0_0_1_n_n]
  rfl

/-- Into a zero accumulator the product at `(r, h)` is the sum over the 512 features of row `r` against column `h`. -/
theorem head_product_apply (A : FVec Ideal S256x512 .f32) (B : FVec Ideal S512x128 .f32) (r : Fin 256) (h : Fin 128) :
    matmul dot_S256x512_S512x128_S256x128_1_0_0_1_n_n none A B (constant (F := Ideal) S256x128 .f32 0x00000000#32) (ix2 r h)
      = ∑ j : Fin 512, A (ix2 r j) * B (ix2 j h) := by
  show FloatOps.matmul _ none A B _ (ix2 r h) = _
  rw [Ideal.matmul_constant_zero_apply,
    ← Equiv.sum_comp (contrEquiv1 dot_S256x512_S512x128_S256x128_1_0_0_1_n_n 512 rfl rfl).symm]
  refine Finset.sum_congr rfl fun j _ => ?_
  have hk := contrEquiv1_symm_val dot_S256x512_S512x128_S256x128_1_0_0_1_n_n 512 rfl rfl j
  have hl : dot_S256x512_S512x128_S256x128_1_0_0_1_n_n.lhsIdx (ix2 r h)
      ((contrEquiv1 dot_S256x512_S512x128_S256x128_1_0_0_1_n_n 512 rfl rfl).symm j) = ix2 r j := by
    funext ax; apply Fin.ext
    match ax with
    | ⟨0, _⟩ => exact head_lhs_row _ _ _
    | ⟨1, _⟩ => exact (head_lhs_col _ _ _).trans hk
  have hr : dot_S256x512_S512x128_S256x128_1_0_0_1_n_n.rhsIdx (ix2 r h)
      ((contrEquiv1 dot_S256x512_S512x128_S256x128_1_0_0_1_n_n 512 rfl rfl).symm j) = ix2 j h := by
    funext ax; apply Fin.ext
    match ax with
    | ⟨0, _⟩ => exact (head_rhs_row _ _ _).trans hk
    | ⟨1, _⟩ => exact head_rhs_col _ _ _
  rw [hl, hr]

/-- One tile of the second layer: the window's result at `(r, h)` is the sum over the 512 features of the row tile's row
    `r` against the weights' column `h` (added to the zero the scratch starts from), plus the bias row at `h`. -/
theorem head_tile_apply (x0 : Vec Ideal S256x512 .f32) (x1 : Vec Ideal S512x128 .f32) (x2 : Vec Ideal S1x128 .f32)
    (r : Fin 256) (h : Fin 128) :
    k1_pay3 (k1_pay2 (k1_pay1 (F := Ideal)) x0 x1) x2 (ix2 r h)
      = (∑ j : Fin 512, x0 (ix2 r j) * x1 (ix2 j h)) + x2 (ix2 (0 : Fin 1) h) := by
  unfold k1_pay3 k1_pay2 k1_pay1
  simp only [shapeCast_self]
  rw [addf_apply, addf_apply, broadcastTo_1b_ab_apply, broadcast_apply]
  refine congrArg (· + x2 (ix2 (0 : Fin 1) h)) ?_
  refine (congrArg (_ + ·) (head_product_apply x0 x1 r h)).trans ?_
  show Ideal.ofBits .f32 0x00000000#32 + _ = _
  rw [Ideal.ofBits_zero_f32, zero_add]

variable (V : (c : Dev nD) → (b : Ref sig .tc) → Buf (Elt Ideal) ((c : Thread nD τ).loc b))

/-! ## Each window's block as a part of its array

At point `t` of the 16 the feature window and the result window are on row tile `t` (rows `256·t … 256·t + 255`, all
columns); the weights' and the bias row's windows are their whole arrays at every point. -/

/-- The block indices of the four windows at point `t`. -/
theorem region1_tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point `t`, at `(r, j)`, is the feature array at `(256·t + r, j)`. -/
theorem region1_feat_block (c : Dev nD) (t : Fin cfg1.N) (r : Fin 256) (j : Fin 512) (n : Fin 4096)
    (hn : n.val = 256 * t.val + r.val) :
    (blk1 V c 0 t : Vec Ideal S256x512 .f32) (ix2 r j) = (V c main_v1 : Cert.Spec.SFeat.Idx → EReal) (ix2 n j) := by
  obtain ⟨e0, e1, -⟩ := region1_tile_index t
  unfold blk1
  rw [View.read_apply]
  show V c main_v1 _ = V c main_v1 _
  congr 1
  funext a; apply Fin.ext
  match a with
  | ⟨0, _⟩ => show win1_0.index t (0 : Fin 2) * 256 + 1 * r.val = n.val; omega
  | ⟨1, _⟩ => show win1_0.index t (1 : Fin 2) * 512 + 1 * j.val = j.val; omega

/-- The weights' window's block is the weights. -/
theorem region1_weights_block (c : Dev nD) (t : Fin cfg1.N) (j : Fin 512) (h : Fin 128) :
    (blk1 V c 1 t : Vec Ideal S512x128 .f32) (ix2 j h) = (V c main_arg3 : Cert.Spec.SW2.Idx → EReal) (ix2 j h) := by
  obtain ⟨-, -, e0, e1, -⟩ := region1_tile_index t
  unfold blk1
  rw [View.read_apply]
  show V c main_arg3 _ = V c main_arg3 _
  congr 1
  funext a; apply Fin.ext
  match a with
  | ⟨0, _⟩ => show win1_1.index t (0 : Fin 2) * 512 + 1 * j.val = j.val; omega
  | ⟨1, _⟩ => show win1_1.index t (1 : Fin 2) * 128 + 1 * h.val = h.val; omega

/-- The bias window's block is the bias row. -/
theorem region1_bias_block (c : Dev nD) (t : Fin cfg1.N) (z : Fin 1) (h : Fin 128) :
    (blk1 V c 2 t : Vec Ideal S1x128 .f32) (ix2 z h) = (V c main_arg4 : Cert.Spec.SB2.Idx → EReal) (ix2 z h) := by
  obtain ⟨-, -, -, -, e0, e1, -⟩ := region1_tile_index t
  unfold blk1
  rw [View.read_apply]
  show V c main_arg4 _ = V c main_arg4 _
  congr 1
  funext a; apply Fin.ext
  match a with
  | ⟨0, _⟩ => show win1_2.index t (0 : Fin 2) * 1 + 1 * z.val = z.val; omega
  | ⟨1, _⟩ => show win1_2.index t (1 : Fin 2) * 128 + 1 * h.val = h.val; omega

/-! ## What a point writes back, and the array after all 16 -/

/-- Point `t` writes back block `t` of the second layer of the arrays the region was entered with: entry `(r, h)` of the
    block sits at row `256·t + r`, column `h` of the result; the feature block read there is rows `256·t …` of the
    features, and the weights and the bias row are read whole. -/
theorem region1_written_back (c : Dev nD) (t : Fin cfg1.N) :
    (dat1 (F := Ideal) V c).flushed 3 t
      = ((cfg1.win 3).blk t).view.read (Elt Ideal) (Cert.Spec.head (V c main_v1) (V c main_arg3) (V c main_arg4)) := by
  show (cfg1.win 3).cut (grid1.coords t) ((dat1 V c).after 3 t) = _
  rw [dat1_after_3]
  funext y
  obtain ⟨r, h, rfl⟩ : ∃ (r : Fin 256) (h : Fin 128), y = ix2 r h := ⟨y 0, y 1, eq_ix2 y⟩
  obtain ⟨-, -, -, -, -, -, e0, e1⟩ := region1_tile_index t
  have ht : t.val < 16 := Nat.lt_of_lt_of_eq t.isLt N_1
  have hr : r.val < 256 := r.isLt
  refine (head_tile_apply (blk1 V c 0 t) (blk1 V c 1 t) (blk1 V c 2 t) r h).trans ?_
  rw [View.read_apply]
  have hi : ((cfg1.win 3).blk t).view.emb (ix2 r h)
      = (ix2 (⟨256 * t.val + r.val, by omega⟩ : Fin 4096) h : Cert.Spec.SOut.Idx) := by
    funext a; apply Fin.ext
    match a with
    | ⟨0, _⟩ => show win1_3.index t (0 : Fin 2) * 256 + 1 * r.val = 256 * t.val + r.val; omega
    | ⟨1, _⟩ => show win1_3.index t (1 : Fin 2) * 128 + 1 * h.val = h.val; omega
  rw [hi]
  show _ = Cert.Spec.head (V c main_v1) (V c main_arg3) (V c main_arg4) (ix2 (⟨256 * t.val + r.val, by omega⟩ : Fin 4096) h)
  unfold Cert.Spec.head
  refine congrArg₂ (· + ·) (Finset.sum_congr rfl fun j _ => ?_) (region1_bias_block V c t 0 h)
  exact congrArg₂ (· * ·) (region1_feat_block V c t r j ⟨256 * t.val + r.val, by omega⟩ rfl) (region1_weights_block V c t j h)

/-- After all 16 points, region 1's result array holds, at `(n, h)`, the sum over all 512 features of row `n` against the
    weights' column `h`, plus the bias: every point writes back its block, and row `n` lies in the block of point `n / 256`. -/
theorem region1_value (c : Dev nD) :
    (dat1 (F := Ideal) V c).arrAt 3 cfg1.N = Cert.Spec.head (V c main_v1) (V c main_arg3) (V c main_arg4) :=
  (dat1 (F := Ideal) V c).arrAt_eq_of_cover 3 _ (fun t _ => region1_written_back V c t) fun i => by
    have h0 : (i 0).val < 4096 := (i 0).isLt
    have h1 : (i 1).val < 128 := (i 1).isLt
    have hN : cfg1.N = 16 := N_1
    have hq : (i 0).val / 256 < cfg1.N := by rw [hN]; omega
    obtain ⟨-, -, -, -, -, -, e0, e1⟩ := region1_tile_index ⟨(i 0).val / 256, hq⟩
    refine ⟨⟨(i 0).val / 256, hq⟩, flush1_3 _, ?_⟩
    show i ∈ ((View.whole main_v2).slice (win1_3.rect ⟨(i 0).val / 256, hq⟩)).set
    rw [View.set_slice_whole, Rect.mem_set_unit]
    intro a
    match a with
    | ⟨0, _⟩ =>
      show win1_3.index ⟨(i 0).val / 256, hq⟩ (0 : Fin 2) * 256 ≤ (i 0).val
        ∧ (i 0).val < win1_3.index ⟨(i 0).val / 256, hq⟩ (0 : Fin 2) * 256 + 256
      rw [e0]; show (i 0).val / 256 * 256 ≤ (i 0).val ∧ (i 0).val < (i 0).val / 256 * 256 + 256; omega
    | ⟨1, _⟩ =>
      show win1_3.index ⟨(i 0).val / 256, hq⟩ (1 : Fin 2) * 128 ≤ (i 1).val
        ∧ (i 1).val < win1_3.index ⟨(i 0).val / 256, hq⟩ (1 : Fin 2) * 128 + 128
      rw [e1]; omega

end Cert.ReferenceIdeal.Ref

end
-- ==== Proof.RefRun.lean ====
/-
  The reference program's run: the host reshape, then the two pipelined regions in order, from the launch to the
  return, with every unscoped buffer named at the end.

  Between two segments a core holds every unscoped buffer whole at a named valuation (at launch `Wa`, after the
  reshape `Wb`, after the first affine layer `Wc`, after the second `Wd`), and beside them its generator register
  at some state and the record that it owes nothing. A region takes its four windows' arrays out of those buffers,
  leaves the others untouched, and puts the arrays back at what its write-backs folded to; the valuation after the
  region is the one before it with exactly those four entries replaced.
-/
import proofs.«123193_g2000202692251168_pallasbulk_345_5_alg».proof.Proof.RefData
import Idealize.ShloMosaic.Lib.Pipeline.Regions
import Idealize.ShloMosaic.Lib.Pipeline.RegionsLoop

set_option maxRecDepth 16384

noncomputable section

namespace Cert.ReferenceIdeal.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit valuation says, entry by entry -/

/-- After the first affine layer, the buffer behind window `w` of that region holds the fold of the window's
    write-backs over all its points (for the three operand windows that is the buffer as entered). -/
theorem Wc_window (c : Dev nD) (w : Fin cfg0.W) :
    Wc m c (Proc.devRef .tc (Pipeline.arrRef spec0 w)) = (dat0 (Vb m) c).arrAt w cfg0.N := by
  unfold Wc
  exact Pipeline.withArrays_arr spec0 winFacts0.arr_inj c _ _ w

/-- A buffer behind none of that region's windows is, after it, what the reshape left. -/
theorem Wc_elsewhere (c : Dev nD) (b : Ref sig .tc) (hb : b ∉ Finset.univ.image (Pipeline.arrRef spec0)) :
    Vc m c b = Vb m c b := by
  show Wc m c (Proc.devRef .tc b) = Wb m c (Proc.devRef .tc b)
  unfold Wc
  exact Pipeline.withArrays_of_ne spec0 c _ _ b fun w hw => hb (Finset.mem_image.mpr ⟨w, Finset.mem_univ w, hw⟩)

/-- After the second affine layer, the buffer behind window `w` of that region holds the fold of its write-backs. -/
theorem Wd_window (c : Dev nD) (w : Fin cfg1.W) :
    Wd m c (Proc.devRef .tc (Pipeline.arrRef spec1 w)) = (dat1 (Vc m) c).arrAt w cfg1.N := by
  unfold Wd
  exact Pipeline.withArrays_arr spec1 winFacts1.arr_inj c _ _ w

/-- A buffer behind none of the second region's windows ends as the first region left it. -/
theorem Wd_elsewhere (c : Dev nD) (b : Ref sig .tc) (hb : b ∉ Finset.univ.image (Pipeline.arrRef spec1)) :
    Wd m c (Proc.devRef .tc b) = Vc m c b := by
  unfold Wd
  exact Pipeline.withArrays_of_ne spec1 c _ _ b fun w hw => hb (Finset.mem_image.mpr ⟨w, Finset.mem_univ w, hw⟩)

/-! ## The two regions' proof data as one family, and what no core of this program has -/

/-- Neither region prefetches a table: the admissible table contents are the empty ones. -/
abbrev adm : (p : Fin 2) → (pcfgs (F := F) p).Adm := fun p => (cfgs p).toPCfg_adm

/-- Region 0's data at the contents the reshape leaves, region 1's at the contents region 0 leaves. -/
def pdats : (p : Fin 2) → (c : Dev nD) → Dat τ (Elt F) Unit ℕ (UR sig nD τ) ℕ (Pipeline.pin (pcfgs (F := F)) adm p) c
  | ⟨0, _⟩ => fun c => dat0 (Vb m) c
  | ⟨1, _⟩ => fun c => dat1 (Vc m) c

/-- No core waits on another: no pair carries a level. -/
abbrev noPairs : GSem nD τ sig → Finset Unit := fun _ => ∅
abbrev level0 : GSem nD τ sig → Unit → ℕ := fun _ _ => 0

/-- Beside its buffers a core carries, from segment to segment, its generator register at some state and the
    record that it owes nothing. -/
abbrev beside (c : Dev nD) : sProp 𝕄 :=
  iprop((∃ r, prngReg c r) ∗ ∃ W, owes (c : Thread nD τ) (0 : CellTallies nD τ sig Unit) W)

/-- The state of core `c` between two segments: every unscoped buffer whole at the valuation `W c`, and `beside`. -/
abbrev between (W : Dev nD → Valuation τ sig (Elt F)) (c : Dev nD) : sProp 𝕄 :=
  iprop(StableHlo.held (c : Thread nD τ) (Pipeline.ucRefs τ sig) (W c) ∗ beside c)

/-! ## Small change: tallies, tables -/

/-- Owing nothing, as a region's loop wants it said at a position where its data owe nothing and bound the recorded
    pairs by everything. -/
theorem tally_of_owes {cfg : Cfg sig Λ₀} {c : Dev nD} (d : Dat τ (Elt F) Unit ℕ (UR sig nD τ) ℕ cfg c) (t : Fin (cfg.N + 1))
    (hzero : d.owed t = 0) (hall : d.recorded t = Set.univ) :
    (iprop(∃ W, owes (c : Thread nD τ) (0 : CellTallies nD τ sig Unit) W) : sProp 𝕄) ⊢ d.owesAt () t := by
  unfold Dat.owesAt Pipeline.owesWithin Dat.bound
  rw [hzero, hall]
  iintro ⟨%W, Howes⟩
  iexists W
  isplitr
  · ipureintro; exact fun x _ => Or.inl (Set.mem_univ x)
  iexact Howes

/-- And back: the loop's tally at such a position is the core owing nothing. -/
theorem owes_of_tally {cfg : Cfg sig Λ₀} {c : Dev nD} (d : Dat τ (Elt F) Unit ℕ (UR sig nD τ) ℕ cfg c) (t : Fin (cfg.N + 1))
    (hzero : d.owed t = 0) :
    d.owesAt () t ⊢ (iprop(∃ W, owes (c : Thread nD τ) (0 : CellTallies nD τ sig Unit) W) : sProp 𝕄) := by
  unfold Dat.owesAt Pipeline.owesWithin
  rw [hzero]
  iintro ⟨%W, -, Howes⟩
  iexists W
  iexact Howes

/-- A region without tables holds its (no) tables for free. -/
theorem tables_free (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from by
    match p with
    | ⟨0, _⟩ => rfl
    | ⟨1, _⟩ => rfl, BI.bigSep_empty]

/-! ## Taking a region's arrays out of the unscoped buffers, and putting them back -/

/-- Entering the first affine layer: the unscoped buffers at the reshape's valuation are the region's four arrays
    at their entry contents and the buffers behind no window of it, each as the reshape left it. -/
theorem open0 (c : Dev nD) :
    StableHlo.held (c : Thread nD τ) (Pipeline.ucRefs τ sig) (Wb m c)
      ⊢ (iprop((pdats m 0 c).arrays ((pdats m 0 c).arrAt · 0)
          ∗ Pipeline.unscopedRest (Ix := Unit) (Name := ℕ) (U := UR sig nD τ) (Lvl := ℕ) spec0 c (Vb m c)) : sProp 𝕄) := by
  rw [← Pipeline.unscopedBufs_held (Ix := Unit) (Name := ℕ) (U := UR sig nD τ) (Lvl := ℕ) c (Wb m c)]
  exact Pipeline.arrays_of_unscopedBufs (p := 0) (pcfgs (F := F)) adm (pdats m) winFacts0 arr_whole0 c
    ((pdats m 0 c).share_full fun _ => rfl) (Vb m c) (dat0_A (Vb m) c)

/-- Leaving it: the four arrays at what their write-backs folded to, with the untouched buffers, are the unscoped
    buffers at `Wc`. -/
theorem close0 (c : Dev nD) :
    (iprop((pdats m 0 c).arrays ((pdats m 0 c).arrAt · cfg0.N)
        ∗ Pipeline.unscopedRest (Ix := Unit) (Name := ℕ) (U := UR sig nD τ) (Lvl := ℕ) spec0 c (Vb m c)) : sProp 𝕄)
      ⊢ StableHlo.held (c : Thread nD τ) (Pipeline.ucRefs τ sig) (Wc m c) := by
  rw [← Pipeline.unscopedBufs_held (Ix := Unit) (Name := ℕ) (U := UR sig nD τ) (Lvl := ℕ) c (Wc m c)]
  exact Pipeline.unscopedBufs_of_arrays (p := 0) (pcfgs (F := F)) adm winFacts0 arr_whole0 c (pdats m)
    ((pdats m 0 c).share_full fun _ => rfl) (Vb m c) (Vc m c) ((pdats m 0 c).arrAt · cfg0.N)
    (fun w => (Wc_window m c w).symm) (Wc_elsewhere m c)

/-- Entering the second affine layer, from `Wc`. -/
theorem open1 (c : Dev nD) :
    StableHlo.held (c : Thread nD τ) (Pipeline.ucRefs τ sig) (Wc m c)
      ⊢ (iprop((pdats m 1 c).arrays ((pdats m 1 c).arrAt · 0)
          ∗ Pipeline.unscopedRest (Ix := Unit) (Name := ℕ) (U := UR sig nD τ) (Lvl := ℕ) spec1 c (Vc m c)) : sProp 𝕄) := by
  rw [← Pipeline.unscopedBufs_held (Ix := Unit) (Name := ℕ) (U := UR sig nD τ) (Lvl := ℕ) c (Wc m c)]
  exact Pipeline.arrays_of_unscopedBufs (p := 1) (pcfgs (F := F)) adm (pdats m) winFacts1 arr_whole1 c
    ((pdats m 1 c).share_full fun _ => rfl) (Vc m c) (dat1_A (Vc m) c)

/-- Leaving it, at `Wd`. -/
theorem close1 (c : Dev nD) :
    (iprop((pdats m 1 c).arrays ((pdats m 1 c).arrAt · cfg1.N)
        ∗ Pipeline.unscopedRest (Ix := Unit) (Name := ℕ) (U := UR sig nD τ) (Lvl := ℕ) spec1 c (Vc m c)) : sProp 𝕄)
      ⊢ StableHlo.held (c : Thread nD τ) (Pipeline.ucRefs τ sig) (Wd m c) := by
  rw [← Pipeline.unscopedBufs_held (Ix := Unit) (Name := ℕ) (U := UR sig nD τ) (Lvl := ℕ) c (Wd m c)]
  exact Pipeline.unscopedBufs_of_arrays (p := 1) (pcfgs (F := F)) adm winFacts1 arr_whole1 c (pdats m)
    ((pdats m 1 c).share_full fun _ => rfl) (Vc m c) (fun b => Wd m c b) ((pdats m 1 c).arrAt · cfg1.N)
    (fun w => (Wd_window m c w).symm) (Wd_elsewhere m c)

/-! ## The two regions as segments of @main -/

set_option backward.isDefEq.respectTransparency.types false in
/-- THE FIRST AFFINE LAYER. Entered between the reshape and itself (`Wb`), left at `Wc`. Of what the core holds,
    the four windows' arrays go to the loop; the generator register goes into the region's invariant (through the
    scoped buffers at anything, which is where the invariant starts) and comes back out of it after the last
    point (where the invariant gives the scoped buffers back at anything); the other four unscoped buffers go
    round. The kernel has no semaphore of its own and owes nothing at any point. -/
def layer0 : Pipeline.RegionSeg (pcfgs (F := F)) adm (pdats m) () defs₀ Variants.none noPairs level0 0 where
  win := launch0.win.to₀
  block_pos := launch0.block_pos
  stage_whole := launch0.stage_whole
  K := PEmpty
  osem k := k.elim
  ho := Pipeline.OwnSemFacts.none _
  hbody c := (obligation0 (Vb m) c).loose
  hwaits := Pipeline.hwaits_of_owed_zero _ _ _ _ noPairs level0 0 fun _ _ => rfl
  pre := between (Wb m)
  post := between (Wc m)
  X c := iprop(∃ r, prngReg c r)
  Y c := iprop(∃ r, prngReg c r)
  Z c := Pipeline.unscopedRest (Ix := Unit) (Name := ℕ) (U := UR sig nD τ) (Lvl := ℕ) spec0 c (Vb m c)
  hentry c := by
    rw [Pipeline.ownSems0_none]
    iintro ⟨⟨Hbufs, Hreg, Howes⟩, -, -⟩
    ihave Hopen := (open0 m c) $$ Hbufs
    icases Hopen with ⟨Harrs, Hround⟩
    ihave Htally := (tally_of_owes (pdats m 0 c) 0 rfl rfl) $$ Howes
    imodintro
    isplitl [Harrs]; · iexact Harrs
    isplitr
    · iapply (tables_free (F := F) 0 c); iempintro
    isplitl [Htally]; · iexact Htally
    isplitl [Hreg]; · iexact Hreg
    iexact Hround
  hin c := by
    refine BIBase.Entails.trans ?_ (inv0_in (Vb m) c)
    unfold Pipeline.ΦA
    iintro ⟨Hreg, -, Hscoped⟩
    isplitl [Hscoped]; · iexact Hscoped
    iexact Hreg
  hout c := by
    rw [Pipeline.ownSems0_none]
    refine BIBase.Entails.trans (inv0_out (Vb m) c) ?_
    unfold Pipeline.ΦA
    iintro ⟨Hscoped, Hreg⟩
    isplitl [Hreg]; · iexact Hreg
    isplitr; · iempintro
    iexact Hscoped
  hexit c := by
    iintro ⟨Harrs, Htally, Hreg, Hround⟩
    ihave Howes := (owes_of_tally (pdats m 0 c) (Fin.last _) rfl) $$ Htally
    ihave Hbufs := (close0 m c) $$ [Harrs Hround]
    · isplitl [Harrs]; · iexact Harrs
      iexact Hround
    imodintro
    isplitl [Hbufs]; · iexact Hbufs
    isplitl [Hreg]; · iexact Hreg
    iexact Howes

set_option backward.isDefEq.respectTransparency.types false in
/-- THE SECOND AFFINE LAYER. Entered at `Wc`, left at `Wd`. Its invariant is the scoped buffers at anything beside
    the generator register at every point, so the register goes in and out as it stands. -/
def layer1 : Pipeline.RegionSeg (pcfgs (F := F)) adm (pdats m) () defs₀ Variants.none noPairs level0 1 where
  win := launch1.win.to₀
  block_pos := launch1.block_pos
  stage_whole := launch1.stage_whole
  K := PEmpty
  osem k := k.elim
  ho := Pipeline.OwnSemFacts.none _
  hbody c := (obligation1 (Vc m) c).loose
  hwaits := Pipeline.hwaits_of_owed_zero _ _ _ _ noPairs level0 1 fun _ _ => rfl
  pre := between (Wc m)
  post := between (Wd m)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    iintro ⟨⟨Hbufs, Hreg, Howes⟩, -, -⟩
    ihave Hopen := (open1 m c) $$ Hbufs
    icases Hopen with ⟨Harrs, Hround⟩
    ihave Htally := (tally_of_owes (pdats m 1 c) 0 rfl rfl) $$ Howes
    imodintro
    isplitl [Harrs]; · iexact Harrs
    isplitr
    · iapply (tables_free (F := F) 1 c); iempintro
    isplitl [Htally]; · iexact Htally
    isplitl [Hreg]; · iexact Hreg
    iexact Hround
  hin c := by
    show _ ⊢ Pipeline.ΦA spec1 c
    unfold Pipeline.ΦA
    iintro ⟨Hreg, -, Hscoped⟩
    isplitl [Hscoped]; · iexact Hscoped
    iexact Hreg
  hout c := by
    rw [Pipeline.ownSems0_none]
    show Pipeline.ΦA spec1 c ⊢ _
    unfold Pipeline.ΦA
    iintro ⟨Hscoped, Hreg⟩
    isplitl [Hreg]; · iexact Hreg
    isplitr; · iempintro
    iexact Hscoped
  hexit c := by
    iintro ⟨Harrs, Htally, Hreg, Hround⟩
    ihave Howes := (owes_of_tally (pdats m 1 c) (Fin.last _) rfl) $$ Htally
    ihave Hbufs := (close1 m c) $$ [Harrs Hround]
    · isplitl [Harrs]; · iexact Harrs
      iexact Hround
    imodintro
    isplitl [Hbufs]; · iexact Hbufs
    isplitl [Hreg]; · iexact Hreg
    iexact Howes

/-! ## The reshape, and @main as the three segments -/

/-- The reshape writes one buffer and allocates none. -/
theorem reshape_allocates_nothing : ∀ op ∈ (hostOps0 : List (HloOp τ sig (Elt F))), op.fresh = ∅ := by
  intro op hop
  rw [List.mem_singleton] at hop
  subst hop
  rfl

/-- The host stretch: the flattening reshape over the unscoped buffers from the launch valuation, `beside` riding
    along; it ends with those buffers at `Wb`. -/
def flatten : Pipeline.HostSeg (Ix := Unit) (Name := ℕ) (U := UR sig nD τ) (Lvl := ℕ) (pcfgs (F := F)) defs₀ Variants.none noPairs level0 :=
  Pipeline.HostSeg.ofOps _ _ _ _ _ (Pipeline.ucRefs τ sig) hostOps0
    (fun op hop => Pipeline.sub_ucRefs op ((List.forall_iff_forall_mem.mp hostOps0_sub) op hop))
    reshape_allocates_nothing (Wa m) beside

/-- @main, segment by segment. -/
abbrev segments : List (Pipeline.Seg (pcfgs (F := F)) adm (pdats m) () defs₀ Variants.none noPairs level0) :=
  [.host (flatten m), .region (layer0 m), .region (layer1 m)]

/-! ## The run -/

set_option backward.isDefEq.respectTransparency.types false in
/-- Every weakly fair execution of the reference's @main terminates, and at the end every unscoped buffer of every core
    holds the contents `Wd`: the launch contents pushed through the reshape and the two regions. -/
theorem run_ref : θ_run defs (onTc (τ := τ) (main (F := F))) ⟨m, fun _ => 0, ρ⟩
    (fun r => ∀ c : Dev nD, ∀ b ∈ Pipeline.ucRefs τ sig, r.2.mem ((c : Thread nD τ).1, b) = Wd m c b) := by
  refine Pipeline.θ_run_regions_kit (pcfgs (F := F)) adm (pdats m) () cellOf_inj emb₁ defs₀ Variants.none noPairs level0
    m ρ main (segments m)
    (fun c Q => by rw [main_segs adm (pdats m) () Variants.none noPairs level0 (flatten m) (layer0 m) (layer1 m) rfl c])
    (by simp only [Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?launchElement)
    (T₀ := between (Wa m))
    (Tₙ := fun c => iprop(StableHlo.held (c : Thread nD τ) (Pipeline.ucRefs τ sig) (Wd m c) ∗ ∃ r, prngReg c r))
    (hch := ⟨fun _ => .rfl, fun _ => .rfl, fun _ => .rfl, fun c => ?lastState⟩)
    (hinit := ?firstState)
    (QY := fun c s => ∀ b ∈ Pipeline.ucRefs τ sig, s.mem ((c : Thread nD τ).1, b) = Wd m c b)
    (hfin := fun c s' => ?reading) (hQ := fun _ h => h)
  case launchElement =>
    -- the whole user component is the pipeline library's launch element; no core has a ghost resource of its own
    rw [ownU_emb₁]
    iintro Hown
    imodintro
    isplitl [Hown]; · iexact Hown
    rw [BI.bigSep_emp_const]
    iempintro
  case lastState =>
    -- after the second region: the buffers at `Wd` and the register on one side, owing nothing on the other
    show between (Wd m) c ⊢ _
    iintro ⟨Hbufs, Hreg, Howes⟩
    isplitr [Howes]
    · isplitl [Hbufs]; · iexact Hbufs
      iexact Hreg
    iexact Howes
  case firstState =>
    -- at launch each core has its unscoped buffers at the launch memory, its register, and owes nothing
    refine Pipeline.initEach noPairs level0 fun c => ?_
    rw [show unscopedBufs c (fun b => m ((c : Thread nD τ).loc b)) = StableHlo.held (c : Thread nD τ) (Pipeline.ucRefs τ sig) (Wa m c)
      from Pipeline.unscopedBufs_held c (Wa m c)]
    iintro ⟨⟨Hbufs, -, Howes, -, Hreg, -⟩, -⟩
    imodintro
    isplitl [Hbufs]; · iexact Hbufs
    isplitl [Hreg]; · iexists _; iexact Hreg
    iexists ∅; iexact Howes
  case reading =>
    -- holding every unscoped buffer at `Wd` beside a final state, that state's memory agrees with `Wd` on each
    unfold StableHlo.held
    iintro ⟨⟨Hbufs, -⟩, Hstate⟩
    imodintro
    iapply (pointsTo_read_all (Pipeline.ucRefs τ sig) (fun b => ((c : Thread nD τ).1, b)) (Wd m c) s')
    isplitl [Hbufs]; · iexact Hbufs
    iexact Hstate

end Cert.ReferenceIdeal.Ref

end
-- ==== Proof.RefBridge.lean ====
/-
  The reference's result as a function of its arguments.

  The buffer contents at @main's return are the launch contents pushed through three steps: the host reshape (a
  row-major flattening of the image batch), region 0 (the first affine layer of the flattened batch) and region 1 (the
  second affine layer of region 0's result). No step writes an argument: the reshape writes its own result only, and a
  region writes only its result window's array.
-/
import proofs.«123193_g2000202692251168_pallasbulk_345_5_alg».proof.Proof.RefData
import proofs.«123193_g2000202692251168_pallasbulk_345_5_alg».proof.Proof.RefValue0
import proofs.«123193_g2000202692251168_pallasbulk_345_5_alg».proof.Proof.RefValue1
import proofs.«123193_g2000202692251168_pallasbulk_345_5_alg».proof.Proof.RefRun
import proofs.«123193_g2000202692251168_pallasbulk_345_5_alg».proof.Proof.Spec
import proofs.«123193_g2000202692251168_pallasbulk_345_5_alg».proof.Proof.Gen.ReferenceIdeal.Regions
import Idealize.ShloMosaic.Lib.StableHlo.Run
import Idealize.ShloMosaic.Lib.Pipeline.Value
import Idealize.ShloMosaic.Lib.ValueIdx

set_option maxRecDepth 16384

noncomputable section

namespace Cert.ReferenceIdeal.Ref

open Idealize.ShloMosaic Idealize.ShloMosaic.TcCoe Idealize.ShloMosaic.Tactic
open Idealize.SL Idealize.SL.Sem
open Idealize.ShloMosaic.Pipeline (Dat)
open Idealize.ShloMosaic.StableHlo
open Cert.ReferenceIdeal.Gen

variable (m : (ℓ : Loc nD τ sig) → Buf (Elt Ideal) ℓ)

/-! ## The host reshape -/

/-- The reshape writes its own result only: every other buffer is as launched. -/
theorem Wb_kept (c : Dev nD) (r : Ref sig .tc) (h : r ∉ hostOps0_W) : Wb m c r = m ((c : Thread nD τ).loc r) :=
  (V1_of m c r h).trans rfl

/-- Its result is the row-major flattening of the image batch: flattened column `k` is channel `k / 1024`, image row
    `(k / 32) % 32`, image column `k % 32`. -/
theorem Wb_flat (c : Dev nD) :
    (Wb m c main_v0 : S4096x3072.Idx → EReal) = Cert.Spec.flat (m ((c : Thread nD τ).loc main_arg0)) := by
  have e : (Wb m c main_v0 : S4096x3072.Idx → EReal)
      = shapeCast S4096x3072 (m ((c : Thread nD τ).loc main_arg0) : S4096x3x32x32.Idx → EReal) shapeCasts_S4096x3x32x32_S4096x3072 := by
    dsimp only [Wb, Wa, hostOps0]; after_results; rfl
  rw [e]
  funext j
  unfold Cert.Spec.flat
  refine shapeCast_apply (s := S4096x3x32x32) (t := S4096x3072) _ _ j
    (ValueIdx.ix4 (n0 := 4096) (n1 := 3) (n2 := 32) (n3 := 32) (j 0) (Cert.Spec.chan (j 1)) (Cert.Spec.prow (j 1)) (Cert.Spec.pcol (j 1))) ?_
  rw [Shape.rowMajor_val_four, Shape.rowMajor_val_two]
  have hj : (j 1).val < 3072 := (j 1).isLt
  show (((j 0).val * 3 + (Cert.Spec.chan (j 1)).val) * 32 + (Cert.Spec.prow (j 1)).val) * 32 + (Cert.Spec.pcol (j 1)).val
    = (j 0).val * 3072 + (j 1).val
  simp only [Cert.Spec.chan, Cert.Spec.prow, Cert.Spec.pcol]
  omega

/-! ## The result -/

/-- At the return the result buffer holds the whole model of the launch contents of the arguments. -/
theorem Wd_result (c : Dev nD) :
    Wd m c main_v2 = Cert.Spec.logits (m ((c : Thread nD τ).loc main_arg0)) (m ((c : Thread nD τ).loc main_arg1)) (m ((c : Thread nD τ).loc main_arg2))
      (m ((c : Thread nD τ).loc main_arg3)) (m ((c : Thread nD τ).loc main_arg4)) := by
  have h1 : Wd m c main_v2 = (dat1 (Vc m) c).arrAt 3 cfg1.N := by
    unfold Wd; exact Pipeline.withArrays_arr spec1 launch1.win.arr_inj c _ _ 3
  have h2 : Wc m c main_v1 = (dat0 (Vb m) c).arrAt 3 cfg0.N := by
    unfold Wc; exact Pipeline.withArrays_arr spec0 launch0.win.arr_inj c _ _ 3
  have h3 : Wc m c main_arg3 = m ((c : Thread nD τ).loc main_arg3) := by
    unfold Wc; exact (Pipeline.withArrays_of_ne spec0 c _ _ main_arg3 (by decide)).trans (Wb_kept m c main_arg3 (by decide))
  have h4 : Wc m c main_arg4 = m ((c : Thread nD τ).loc main_arg4) := by
    unfold Wc; exact (Pipeline.withArrays_of_ne spec0 c _ _ main_arg4 (by decide)).trans (Wb_kept m c main_arg4 (by decide))
  rw [h1, region1_value (Vc m) c]
  show Cert.Spec.head (Wc m c main_v1) (Wc m c main_arg3) (Wc m c main_arg4) = _
  rw [h2, h3, h4, region0_value (Vb m) c]
  show Cert.Spec.head (Cert.Spec.feat (Wb m c main_v0) (Wb m c main_arg1) (Wb m c main_arg2)) _ _ = _
  rw [Wb_flat m c, Wb_kept m c main_arg1 (by decide), Wb_kept m c main_arg2 (by decide)]
  rfl

/-! ## The arguments -/

theorem Wd_arg0 (c : Dev nD) : Wd m c main_arg0 = m ((c : Thread nD τ).loc main_arg0) := by
  unfold Wd
  refine (Pipeline.withArrays_of_ne spec1 c _ _ main_arg0 (by decide)).trans ?_
  unfold Wc
  exact (Pipeline.withArrays_of_ne spec0 c _ _ main_arg0 (by decide)).trans (Wb_kept m c main_arg0 (by decide))

theorem Wd_arg1 (c : Dev nD) : Wd m c main_arg1 = m ((c : Thread nD τ).loc main_arg1) := by
  unfold Wd
  refine (Pipeline.withArrays_of_ne spec1 c _ _ main_arg1 (by decide)).trans ?_
  unfold Wc
  refine (Pipeline.withArrays_arr spec0 launch0.win.arr_inj c _ _ 1).trans ?_
  exact ((dat0 (Vb m) c).arrAt_in 1 rfl _).trans ((dat0_A (Vb m) c 1).trans (Wb_kept m c main_arg1 (by decide)))

theorem Wd_arg2 (c : Dev nD) : Wd m c main_arg2 = m ((c : Thread nD τ).loc main_arg2) := by
  unfold Wd
  refine (Pipeline.withArrays_of_ne spec1 c _ _ main_arg2 (by decide)).trans ?_
  unfold Wc
  refine (Pipeline.withArrays_arr spec0 launch0.win.arr_inj c _ _ 2).trans ?_
  exact ((dat0 (Vb m) c).arrAt_in 2 rfl _).trans ((dat0_A (Vb m) c 2).trans (Wb_kept m c main_arg2 (by decide)))

theorem Wd_arg3 (c : Dev nD) : Wd m c main_arg3 = m ((c : Thread nD τ).loc main_arg3) := by
  unfold Wd
  refine (Pipeline.withArrays_arr spec1 launch1.win.arr_inj c _ _ 1).trans ?_
  refine ((dat1 (Vc m) c).arrAt_in 1 rfl _).trans ((dat1_A (Vc m) c 1).trans ?_)
  show Wc m c main_arg3 = _
  unfold Wc
  exact (Pipeline.withArrays_of_ne spec0 c _ _ main_arg3 (by decide)).trans (Wb_kept m c main_arg3 (by decide))

theorem Wd_arg4 (c : Dev nD) : Wd m c main_arg4 = m ((c : Thread nD τ).loc main_arg4) := by
  unfold Wd
  refine (Pipeline.withArrays_arr spec1 launch1.win.arr_inj c _ _ 2).trans ?_
  refine ((dat1 (Vc m) c).arrAt_in 2 rfl _).trans ((dat1_A (Vc m) c 2).trans ?_)
  show Wc m c main_arg4 = _
  unfold Wc
  exact (Pipeline.withArrays_of_ne spec0 c _ _ main_arg4 (by decide)).trans (Wb_kept m c main_arg4 (by decide))

/-! ## The run, with the result named -/

/-- An unscoped buffer of the TensorCore is among those the run's post reads. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

/-- Every weakly fair execution of the reference terminates with its result at the whole model of the launch contents of the
    arguments, and the arguments unchanged. -/
theorem run_value : θ_run (defs (F := Ideal)) (onTc (τ := τ) (main (F := Ideal))) ⟨m, fun _ => 0, ρ⟩ (fun r => ∀ c : Dev nD,
      r.2.mem ((c.tc : Thread nD τ).loc main_v2) = Cert.Spec.logits (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h c _ (mem_unscoped main_v2 (by decide))).trans (Wd_result m c),
      (h c _ (mem_unscoped main_arg0 (by decide))).trans (Wd_arg0 m c),
      (h c _ (mem_unscoped main_arg1 (by decide))).trans (Wd_arg1 m c),
      (h c _ (mem_unscoped main_arg2 (by decide))).trans (Wd_arg2 m c),
      (h c _ (mem_unscoped main_arg3 (by decide))).trans (Wd_arg3 m c),
      (h c _ (mem_unscoped main_arg4 (by decide))).trans (Wd_arg4 m c)⟩)
    (run_ref m ρ)

end Cert.ReferenceIdeal.Ref

end
-- ==== Proof.lean ====
/-
  A clustering model's forward pass — flatten an image batch `x : [4096, 3, 32, 32]` row-major to `[4096, 3072]`, a
  first affine layer to 512 features, a second to 128 scores — computed two ways.

  The KERNEL is one fused region over 16 row tiles: each tile's 256 rows are flattened in place, multiplied by the whole
  first weight matrix in ONE contraction over all 3072 columns, the bias row added, and the 512 features multiplied at once
  by the second weight matrix, its bias row added (the narrowings of the operands to a 16-bit float format before each
  product change nothing over the extended reals, where a change of float format is the identity).
  The REFERENCE reshapes on the host and then runs two tiled regions: the first layer with the contracted axis cut into 6
  slices of 512 whose products are accumulated in a scratch (zeroed at the first slice, the bias row added at the last),
  the second layer with its contracted axis in one slice.

  Over the extended reals both are `z (n, h) = (∑ j < 512, ((∑ k < 3072, xflat (n, k) · w₁ (k, j)) + b₁ (0, j)) · w₂ (j, h)) + b₂ (0, h)`:
  the only difference is that the reference's inner sum is taken slice by slice, starting from zero, and a finite sum in a
  commutative monoid does not depend on how it is grouped. Nothing is distributed or cancelled, so the claim holds for every
  extended-real input and the finiteness precondition is not used.

  Proof/Spec.lean states that function; Proof/KernelValue.lean shows the kernel's result array is it (block by block, then the
  16 blocks cover the array); Proof/RefBody.lean, RefData.lean and RefRun.lean run the reference's two regions and its @main;
  Proof/RefValue0.lean and RefValue1.lean read what each region leaves; Proof/RefBridge.lean composes them.
-/
import proofs.«123193_g2000202692251168_pallasbulk_345_5_alg».proof.Defs
import proofs.«123193_g2000202692251168_pallasbulk_345_5_alg».proof.Proof.Gen.Kernel
import proofs.«123193_g2000202692251168_pallasbulk_345_5_alg».proof.Proof.Gen.Kernel.Frame
import proofs.«123193_g2000202692251168_pallasbulk_345_5_alg».proof.Proof.Gen.KernelIdeal
import proofs.«123193_g2000202692251168_pallasbulk_345_5_alg».proof.Proof.Gen.KernelIdeal.Frame
import proofs.«123193_g2000202692251168_pallasbulk_345_5_alg».proof.Proof.Gen.ReferenceIdeal
import proofs.«123193_g2000202692251168_pallasbulk_345_5_alg».proof.Proof.Gen.Pre_finite_inputs
import proofs.«123193_g2000202692251168_pallasbulk_345_5_alg».proof.Proof.KernelValue
import proofs.«123193_g2000202692251168_pallasbulk_345_5_alg».proof.Proof.RefBridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result named, the result dropped. -/
theorem frame_referenceIdeal : Cert.frame_ReferenceIdeal := fun m ρ _ =>
  (θ_run Cert.ReferenceIdeal.defs _ _).mono (fun _ h c => (h c).2) (Cert.ReferenceIdeal.Ref.run_value m ρ)

/-- The idealization rewrote no operation. -/
theorem preserves : Cert.preserves_Kernel_KernelIdeal := trivial

/-- From memories that agree on the arguments both programs end with the same scores: each result array is the one
    function `Cert.Spec.logits` of the argument arrays. -/
theorem algebraic : Cert.algebraic_KernelIdeal_ReferenceIdeal := by
  intro m ρ m' ρ' _ hagree
  refine ⟨fun c => Cert.KernelIdeal.KValue.result m c, Cert.KernelIdeal.KValue.run_value m ρ, ?_⟩
  refine (θ_run Cert.ReferenceIdeal.defs _ _).mono (fun _ h c => ⟨(h c).1.trans ?_, (h c).2⟩)
    (Cert.ReferenceIdeal.Ref.run_value m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
